-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x8 : Shape := ⟨2, ![1000000, 8]⟩
abbrev S2x16000000 : Shape := ⟨2, ![2, 16000000]⟩
abbrev S16000000 : Shape := ⟨1, ![16000000]⟩
abbrev S1000000x16 : Shape := ⟨2, ![1000000, 16]⟩
abbrev S8x64 : Shape := ⟨2, ![8, 64]⟩
abbrev S64 : Shape := ⟨1, ![64]⟩
abbrev S16x64 : Shape := ⟨2, ![16, 64]⟩
abbrev S3x16 : Shape := ⟨2, ![3, 16]⟩
abbrev S4x16 : Shape := ⟨2, ![4, 16]⟩
abbrev S16x1 : Shape := ⟨2, ![16, 1]⟩
abbrev S1 : Shape := ⟨1, ![1]⟩
abbrev S_ : Shape := ⟨0, ![]⟩

class Facts : Prop where
  bcast_S_S1000000x8 : S_.BroadcastsInDim S1000000x8 (![] : Fin 0 → Fin S1000000x8.rank)
  reducesTo_S1000000x8_S_d0_1 : S1000000x8.ReducesTo [0, 1] S_
  h_S_ : 0 < S_.numel
  bcast_S_S16000000 : S_.BroadcastsInDim S16000000 (![] : Fin 0 → Fin S16000000.rank)
  reducesTo_S16000000_S_d0 : S16000000.ReducesTo [0] S_
  bcast_S_S1000000x16 : S_.BroadcastsInDim S1000000x16 (![] : Fin 0 → Fin S1000000x16.rank)
  reducesTo_S1000000x16_S_d0_1 : S1000000x16.ReducesTo [0, 1] S_
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S3x16 : S_.BroadcastsInDim S3x16 (![] : Fin 0 → Fin S3x16.rank)
  reducesTo_S3x16_S_d0_1 : S3x16.ReducesTo [0, 1] S_
  bcast_S_S4x16 : S_.BroadcastsInDim S4x16 (![] : Fin 0 → Fin S4x16.rank)
  reducesTo_S4x16_S_d0_1 : S4x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S16x1 .f32) (main_v50 : FVec F S16x1 .f32) : IVec S_ 1 :=
  let main_v51 : IVec S16x1 1 := cmpf .olt main_v49 main_v50
  let main_c_19 : IVec S_ 1 := constantI S_ 1 1#1
  let main_v52 : IVec S_ 1 := (fun x v => Host.reduce IntOp.andi x v reducesTo_S16x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S64 .f32) (main_arg9 : FVec F S3x16 .f32) (main_arg10 : FVec F S4x16 .f32) (main_arg11 : FVec F S16x1 .f32) (main_arg12 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S3x16 .f32 := Host.absf main_arg9
  let main_cst_14 : FVec F S_ .f32 := constant S_ .f32 0x7F800000#32
  let main_v40 : FVec F S3x16 .f32 := broadcastInDim S3x16 ![] bcast_S_S3x16 main_cst_14
  let main_v41 : IVec S3x16 1 := cmpf .olt main_v39 main_v40
  let main_c_15 : IVec S_ 1 := constantI S_ 1 1#1
  let main_v42 : IVec S_ 1 := (fun x v => Host.reduce IntOp.andi x v reducesTo_S3x16_S_d0_1 h_S_) main_v41 main_c_15
  let main_v43 : IVec S_ 1 := andi main_v38 main_v42
  let main_v44 : FVec F S4x16 .f32 := Host.absf main_arg10
  let main_cst_16 : FVec F S_ .f32 := constant S_ .f32 0x7F800000#32
  let main_v45 : FVec F S4x16 .f32 := broadcastInDim S4x16 ![] bcast_S_S4x16 main_cst_16
  let main_v46 : IVec S4x16 1 := cmpf .olt main_v44 main_v45
  let main_c_17 : IVec S_ 1 := constantI S_ 1 1#1
  let main_v47 : IVec S_ 1 := (fun x v => Host.reduce IntOp.andi x v reducesTo_S4x16_S_d0_1 h_S_) main_v46 main_c_17
  let main_v48 : IVec S_ 1 := andi main_v43 main_v47
  let main_v49 : FVec F S16x1 .f32 := Host.absf main_arg11
  let main_cst_18 : FVec F S_ .f32 := constant S_ .f32 0x7F800000#32
  let main_v50 : FVec F S16x1 .f32 := broadcastInDim S16x1 ![] bcast_S_S16x1 main_cst_18
  fn_part3 (F := F) main_arg12 main_v48 main_v49 main_v50

def fn_part1 {F : FTy → Type} [FloatOps F] (main_arg5 : FVec F S8x64 .f32) (main_arg6 : FVec F S64 .f32) (main_arg7 : FVec F S16x64 .f32) (main_arg8 : FVec F S64 .f32) (main_arg9 : FVec F S3x16 .f32) (main_arg10 : FVec F S4x16 .f32) (main_arg11 : FVec F S16x1 .f32) (main_arg12 : FVec F S1 .f32) (main_v13 : IVec S_ 1) (main_v16 : IVec S1000000x16 1) : IVec S_ 1 :=
  let main_c_5 : IVec S_ 1 := constantI S_ 1 1#1
  let main_v17 : IVec S_ 1 := (fun x v => Host.reduce IntOp.andi x v reducesTo_S1000000x16_S_d0_1 h_S_) main_v16 main_c_5
  let main_v18 : IVec S_ 1 := andi main_v13 main_v17
  let main_v19 : FVec F S8x64 .f32 := Host.absf main_arg5
  let main_cst_6 : FVec F S_ .f32 := constant S_ .f32 0x7F800000#32
  let main_v20 : FVec F S8x64 .f32 := broadcastInDim S8x64 ![] bcast_S_S8x64 main_cst_6
  let main_v21 : IVec S8x64 1 := cmpf .olt main_v19 main_v20
  let main_c_7 : IVec S_ 1 := constantI S_ 1 1#1
  let main_v22 : IVec S_ 1 := (fun x v => Host.reduce IntOp.andi x v reducesTo_S8x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S16x64 .f32 := Host.absf main_arg7
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S1000000x8 .f32) (main_arg1 : IVec S2x16000000 32) (main_arg2 : FVec F S16000000 .f32) (main_arg3 : FVec F S1000000x16 .f32) (main_arg4 : FVec F S1000000x16 .f32) (main_arg5 : FVec F S8x64 .f32) (main_arg6 : FVec F S64 .f32) (main_arg7 : FVec F S16x64 .f32) (main_arg8 : FVec F S64 .f32) (main_arg9 : FVec F S3x16 .f32) (main_arg10 : FVec F S4x16 .f32) (main_arg11 : FVec F S16x1 .f32) (main_arg12 : FVec F S1 .f32) : IVec S_ 1 :=
  let main_v0 : FVec F S1000000x8 .f32 := Host.absf main_arg0
  let main_cst : FVec F S_ .f32 := constant S_ .f32 0x7F800000#32
  let main_v1 : FVec F S1000000x8 .f32 := broadcastInDim S1000000x8 ![] bcast_S_S1000000x8 main_cst
  let main_v2 : IVec S1000000x8 1 := cmpf .olt main_v0 main_v1
  let main_c : IVec S_ 1 := constantI S_ 1 1#1
  let main_v3 : IVec S_ 1 := (fun x v => Host.reduce IntOp.andi x v reducesTo_S1000000x8_S_d0_1 h_S_) main_v2 main_c
  let main_v4 : FVec F S16000000 .f32 := Host.absf main_arg2
  let main_cst_0 : FVec F S_ .f32 := constant S_ .f32 0x7F800000#32
  let main_v5 : FVec F S16000000 .f32 := broadcastInDim S16000000 ![] bcast_S_S16000000 main_cst_0
  let main_v6 : IVec S16000000 1 := cmpf .olt main_v4 main_v5
  let main_c_1 : IVec S_ 1 := constantI S_ 1 1#1
  let main_v7 : IVec S_ 1 := (fun x v => Host.reduce IntOp.andi x v reducesTo_S16000000_S_d0 h_S_) main_v6 main_c_1
  let main_v8 : IVec S_ 1 := andi main_v3 main_v7
  let main_v9 : FVec F S1000000x16 .f32 := Host.absf main_arg3
  let main_cst_2 : FVec F S_ .f32 := constant S_ .f32 0x7F800000#32
  let main_v10 : FVec F S1000000x16 .f32 := broadcastInDim S1000000x16 ![] bcast_S_S1000000x16 main_cst_2
  let main_v11 : IVec S1000000x16 1 := cmpf .olt main_v9 main_v10
  let main_c_3 : IVec S_ 1 := constantI S_ 1 1#1
  let main_v12 : IVec S_ 1 := (fun x v => Host.reduce IntOp.andi x v reducesTo_S1000000x16_S_d0_1 h_S_) main_v11 main_c_3
  let main_v13 : IVec S_ 1 := andi main_v8 main_v12
  let main_v14 : FVec F S1000000x16 .f32 := Host.absf main_arg4
  let main_cst_4 : FVec F S_ .f32 := constant S_ .f32 0x7F800000#32
  let main_v15 : FVec F S1000000x16 .f32 := broadcastInDim S1000000x16 ![] bcast_S_S1000000x16 main_cst_4
  let main_v16 : IVec S1000000x16 1 := cmpf .olt main_v14 main_v15
  fn_part1 (F := F) main_arg5 main_arg6 main_arg7 main_arg8 main_arg9 main_arg10 main_arg11 main_arg12 main_v13 main_v16
-- ==== Kernel.lean ====
abbrev S1000000x8 : Shape := ⟨2, ![1000000, 8]⟩
abbrev S2x16000000 : Shape := ⟨2, ![2, 16000000]⟩
abbrev S16000000 : Shape := ⟨1, ![16000000]⟩
abbrev S1000000x16 : Shape := ⟨2, ![1000000, 16]⟩
abbrev S8x64 : Shape := ⟨2, ![8, 64]⟩
abbrev S64 : Shape := ⟨1, ![64]⟩
abbrev S16x64 : Shape := ⟨2, ![16, 64]⟩
abbrev S3x16 : Shape := ⟨2, ![3, 16]⟩
abbrev S4x16 : Shape := ⟨2, ![4, 16]⟩
abbrev S16x1 : Shape := ⟨2, ![16, 1]⟩
abbrev S1 : Shape := ⟨1, ![1]⟩
abbrev S1000000x1 : Shape := ⟨2, ![1000000, 1]⟩
abbrev S10000x8 : Shape := ⟨2, ![10000, 8]⟩
abbrev S10000x16 : Shape := ⟨2, ![10000, 16]⟩
abbrev S10000x1 : Shape := ⟨2, ![10000, 1]⟩
abbrev S10000x64 : Shape := ⟨2, ![10000, 64]⟩
abbrev S1x64 : Shape := ⟨2, ![1, 64]⟩
abbrev S1x16 : Shape := ⟨2, ![1, 16]⟩
abbrev S16 : Shape := ⟨1, ![16]⟩
abbrev S1x1 : Shape := ⟨2, ![1, 1]⟩

abbrev nBuf : Space → Nat
  | .hbm => 16
  | .vmem => 20
  | .smem => 0
  | _ => 0

abbrev bufTy : (tb : Table) → Fin (tcTables nBuf tb) → BufTy
  | .hbm, ⟨0, _⟩ => ⟨S1000000x8, .f32⟩
  | .hbm, ⟨1, _⟩ => ⟨S2x16000000, .i32⟩
  | .hbm, ⟨2, _⟩ => ⟨S16000000, .f32⟩
  | .hbm, ⟨3, _⟩ => ⟨S1000000x16, .f32⟩
  | .hbm, ⟨4, _⟩ => ⟨S1000000x16, .f32⟩
  | .hbm, ⟨5, _⟩ => ⟨S8x64, .f32⟩
  | .hbm, ⟨6, _⟩ => ⟨S64, .f32⟩
  | .hbm, ⟨7, _⟩ => ⟨S16x64, .f32⟩
  | .hbm, ⟨8, _⟩ => ⟨S64, .f32⟩
  | .hbm, ⟨9, _⟩ => ⟨S3x16, .f32⟩
  | .hbm, ⟨10, _⟩ => ⟨S4x16, .f32⟩
  | .hbm, ⟨11, _⟩ => ⟨S16x1, .f32⟩
  | .hbm, ⟨12, _⟩ => ⟨S1, .f32⟩
  | .hbm, ⟨13, _⟩ => ⟨S1000000x1, .f32⟩
  | .hbm, ⟨14, _⟩ => ⟨S1000000x16, .f32⟩
  | .hbm, ⟨15, _⟩ => ⟨S1000000x16, .f32⟩
  | .local _ .vmem, ⟨0, _⟩ => ⟨S10000x8, .f32⟩
  | .local _ .vmem, ⟨1, _⟩ => ⟨S10000x8, .f32⟩
  | .local _ .vmem, ⟨2, _⟩ => ⟨S10000x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S8x64, .f32⟩
  | .local _ .vmem, ⟨7, _⟩ => ⟨S64, .f32⟩
  | .local _ .vmem, ⟨8, _⟩ => ⟨S16x64, .f32⟩
  | .local _ .vmem, ⟨9, _⟩ => ⟨S64, .f32⟩
  | .local _ .vmem, ⟨10, _⟩ => ⟨S3x16, .f32⟩
  | .local _ .vmem, ⟨11, _⟩ => ⟨S4x16, .f32⟩
  | .local _ .vmem, ⟨12, _⟩ => ⟨S16x1, .f32⟩
  | .local _ .vmem, ⟨13, _⟩ => ⟨S1, .f32⟩
  | .local _ .vmem, ⟨14, _⟩ => ⟨S10000x1, .f32⟩
  | .local _ .vmem, ⟨15, _⟩ => ⟨S10000x1, .f32⟩
  | .local _ .vmem, ⟨16, _⟩ => ⟨S10000x16, .f32⟩
  | .local _ .vmem, ⟨17, _⟩ => ⟨S10000x16, .f32⟩
  | .local _ .vmem, ⟨18, _⟩ => ⟨S10000x16, .f32⟩
  | .local _ .vmem, ⟨19, _⟩ => ⟨S10000x16, .f32⟩
  | _, _ => ⟨S1000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S10000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S10000x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S10000x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S10000x8_S10000x8_0_0 : ∀ a, (![0, 0] : Fin 2 → Nat) a + S10000x8.size a ≤ S10000x8.size a
  h_S10000x8 : 0 < S10000x8.numel
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  slices_S10000x64_o0_0_S10000x16 : S10000x64.Slices ![0, 0] S10000x16
  slices_S10000x64_o0_16_S10000x16 : S10000x64.Slices ![0, 16] S10000x16
  slices_S10000x64_o0_32_S10000x16 : S10000x64.Slices ![0, 32] S10000x16
  slices_S10000x64_o0_48_S10000x16 : S10000x64.Slices ![0, 48] S10000x16
  inb_S3x16_S3x16_0_0 : ∀ a, (![0, 0] : Fin 2 → Nat) a + S3x16.size a ≤ S3x16.size a
  h_S3x16 : 0 < S3x16.numel
  inb_S4x16_S4x16_0_0 : ∀ a, (![0, 0] : Fin 2 → Nat) a + S4x16.size a ≤ S4x16.size a
  h_S4x16 : 0 < S4x16.numel
  slices_S3x16_o0_0_S1x16 : S3x16.Slices ![0, 0] S1x16
  shapeCasts_S1x16_S16 : S1x16.ShapeCasts S16
  shapeCasts_S16_S1x16 : S16.ShapeCasts S1x16
  broadcasts_S1x16_S10000x16 : S1x16.Broadcasts S10000x16
  slices_S4x16_o0_0_S1x16 : S4x16.Slices ![0, 0] S1x16
  slices_S3x16_o1_0_S1x16 : S3x16.Slices ![1, 0] S1x16
  slices_S4x16_o1_0_S1x16 : S4x16.Slices ![1, 0] S1x16
  slices_S4x16_o2_0_S1x16 : S4x16.Slices ![2, 0] S1x16
  slices_S3x16_o2_0_S1x16 : S3x16.Slices ![2, 0] S1x16
  slices_S4x16_o3_0_S1x16 : S4x16.Slices ![3, 0] S1x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  dot_S10000x8_S8x64_S10000x64_1_0_0_1_n_n_wf : DotDims.WF S10000x8 S8x64 S10000x64 [1] [0] [0] [1] [] []
  dot_S10000x16_S16x64_S10000x64_1_0_0_1_n_n_wf : DotDims.WF S10000x16 S16x64 S10000x64 [1] [0] [0] [1] [] []
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x8.size a ≤ S1000000x8.size a
  hwx0_0 : ∀ i : grid0.Coords, EltTy.bits .f32 = 32 ∨ (Rect.block (s := S1000000x8) S10000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S1000000x16.size a
  hwx0_1 : ∀ i : grid0.Coords, EltTy.bits .f32 = 32 ∨ (Rect.block (s := S1000000x16) S10000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S1000000x16.size a
  hwx0_2 : ∀ i : grid0.Coords, EltTy.bits .f32 = 32 ∨ (Rect.block (s := S1000000x16) S10000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S8x64.size a
  hwx0_3 : ∀ i : grid0.Coords, EltTy.bits .f32 = 32 ∨ (Rect.block (s := S8x64) S8x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x16.size a ≤ S3x16.size a
  hwx0_7 : ∀ i : grid0.Coords, EltTy.bits .f32 = 32 ∨ (Rect.block (s := S3x16) S3x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x16.size a ≤ S4x16.size a
  hwx0_8 : ∀ i : grid0.Coords, EltTy.bits .f32 = 32 ∨ (Rect.block (s := S4x16) S4x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x1.size a ≤ S16x1.size a
  hwx0_9 : ∀ i : grid0.Coords, EltTy.bits .f32 = 32 ∨ (Rect.block (s := S16x1) S16x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S10000x1.size a ≤ S1000000x1.size a
  hwx0_11 : ∀ i : grid0.Coords, EltTy.bits .f32 = 32 ∨ (Rect.block (s := S1000000x1) S10000x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S10000x16.size a ≤ S1000000x16.size a
  hwx0_12 : ∀ i : grid0.Coords, EltTy.bits .f32 = 32 ∨ (Rect.block (s := S1000000x16) S10000x16.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S10000x16.size a ≤ S1000000x16.size a
  hwx0_13 : ∀ i : grid0.Coords, EltTy.bits .f32 = 32 ∨ (Rect.block (s := S1000000x16) S10000x16.size (cc0_transform_13 i) (hinb0_13 i)).WholeWords (EltTy.packing .f32)

variable [Facts₀]

def dot_S10000x8_S8x64_S10000x64_1_0_0_1_n_n : DotDims S10000x8 S8x64 S10000x64 where
  lhsContracting := [1]
  rhsContracting := [0]
  lhsNonContracting := [0]
  rhsNonContracting := [1]
  lhsBatch := []
  rhsBatch := []
  wf := dot_S10000x8_S8x64_S10000x64_1_0_0_1_n_n_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_arg0) S10000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S10000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S8x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S3x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S4x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S16x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S10000x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S10000x16.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_2) S10000x16.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1000000x8 : Shape := ⟨2, ![1000000, 8]⟩
abbrev S2x16000000 : Shape := ⟨2, ![2, 16000000]⟩
abbrev S16000000 : Shape := ⟨1, ![16000000]⟩
abbrev S1000000x16 : Shape := ⟨2, ![1000000, 16]⟩
abbrev S8x64 : Shape := ⟨2, ![8, 64]⟩
abbrev S64 : Shape := ⟨1, ![64]⟩
abbrev S16x64 : Shape := ⟨2, ![16, 64]⟩
abbrev S3x16 : Shape := ⟨2, ![3, 16]⟩
abbrev S4x16 : Shape := ⟨2, ![4, 16]⟩
abbrev S16x1 : Shape := ⟨2, ![16, 1]⟩
abbrev S1 : Shape := ⟨1, ![1]⟩
abbrev S1000000x64 : Shape := ⟨2, ![1000000, 64]⟩
abbrev S1x64 : Shape := ⟨2, ![1, 64]⟩
abbrev S1x16 : Shape := ⟨2, ![1, 16]⟩
abbrev S16 : Shape := ⟨1, ![16]⟩
abbrev S_ : Shape := ⟨0, ![]⟩
abbrev S1000000x1 : Shape := ⟨2, ![1000000, 1]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S1000000x8, .f32⟩
  | .hbm, ⟨1, _⟩ => ⟨S2x16000000, .i32⟩
  | .hbm, ⟨2, _⟩ => ⟨S16000000, .f32⟩
  | .hbm, ⟨3, _⟩ => ⟨S1000000x16, .f32⟩
  | .hbm, ⟨4, _⟩ => ⟨S1000000x16, .f32⟩
  | .hbm, ⟨5, _⟩ => ⟨S8x64, .f32⟩
  | .hbm, ⟨6, _⟩ => ⟨S64, .f32⟩
  | .hbm, ⟨7, _⟩ => ⟨S16x64, .f32⟩
  | .hbm, ⟨8, _⟩ => ⟨S64, .f32⟩
  | .hbm, ⟨9, _⟩ => ⟨S3x16, .f32⟩
  | .hbm, ⟨10, _⟩ => ⟨S4x16, .f32⟩
  | .hbm, ⟨11, _⟩ => ⟨S16x1, .f32⟩
  | .hbm, ⟨12, _⟩ => ⟨S1, .f32⟩
  | .hbm, ⟨13, _⟩ => ⟨S1000000x64, .f32⟩
  | .hbm, ⟨14, _⟩ => ⟨S1x64, .f32⟩
  | .hbm, ⟨15, _⟩ => ⟨S1000000x64, .f32⟩
  | .hbm, ⟨16, _⟩ => ⟨S1000000x64, .f32⟩
  | .hbm, ⟨17, _⟩ => ⟨S1000000x64, .f32⟩
  | .hbm, ⟨18, _⟩ => ⟨S1x64, .f32⟩
  | .hbm, ⟨19, _⟩ => ⟨S1000000x64, .f32⟩
  | .hbm, ⟨20, _⟩ => ⟨S1000000x64, .f32⟩
  | .hbm, ⟨21, _⟩ => ⟨S1000000x64, .f32⟩
  | .hbm, ⟨22, _⟩ => ⟨S1000000x16, .f32⟩
  | .hbm, ⟨23, _⟩ => ⟨S1000000x16, .f32⟩
  | .hbm, ⟨24, _⟩ => ⟨S1000000x16, .f32⟩
  | .hbm, ⟨25, _⟩ => ⟨S1000000x16, .f32⟩
  | .hbm, ⟨26, _⟩ => ⟨S1x16, .f32⟩
  | .hbm, ⟨27, _⟩ => ⟨S16, .f32⟩
  | .hbm, ⟨28, _⟩ => ⟨S1x16, .f32⟩
  | .hbm, ⟨29, _⟩ => ⟨S1000000x16, .f32⟩
  | .hbm, ⟨30, _⟩ => ⟨S1000000x16, .f32⟩
  | .hbm, ⟨31, _⟩ => ⟨S1000000x16, .f32⟩
  | .hbm, ⟨32, _⟩ => ⟨S1x16, .f32⟩
  | .hbm, ⟨33, _⟩ => ⟨S16, .f32⟩
  | .hbm, ⟨34, _⟩ => ⟨S1x16, .f32⟩
  | .hbm, ⟨35, _⟩ => ⟨S1000000x16, .f32⟩
  | .hbm, ⟨36, _⟩ => ⟨S1000000x16, .f32⟩
  | .hbm, ⟨37, _⟩ => ⟨S1000000x16, .f32⟩
  | .hbm, ⟨38, _⟩ => ⟨S1000000x16, .f32⟩
  | .hbm, ⟨39, _⟩ => ⟨S_, .f32⟩
  | .hbm, ⟨40, _⟩ => ⟨S1000000x16, .f32⟩
  | .hbm, ⟨41, _⟩ => ⟨S1000000x16, .f32⟩
  | .hbm, ⟨42, _⟩ => ⟨S_, .f32⟩
  | .hbm, ⟨43, _⟩ => ⟨S1000000x16, .f32⟩
  | .hbm, ⟨44, _⟩ => ⟨S1000000x16, .f32⟩
  | .hbm, ⟨45, _⟩ => ⟨S1x16, .f32⟩
  | .hbm, ⟨46, _⟩ => ⟨S16, .f32⟩
  | .hbm, ⟨47, _⟩ => ⟨S1x16, .f32⟩
  | .hbm, ⟨48, _⟩ => ⟨S1000000x16, .f32⟩
  | .hbm, ⟨49, _⟩ => ⟨S1000000x16, .f32⟩
  | .hbm, ⟨50, _⟩ => ⟨S1000000x16, .f32⟩
  | .hbm, ⟨51, _⟩ => ⟨S1x16, .f32⟩
  | .hbm, ⟨52, _⟩ => ⟨S16, .f32⟩
  | .hbm, ⟨53, _⟩ => ⟨S1x16, .f32⟩
  | .hbm, ⟨54, _⟩ => ⟨S1000000x16, .f32⟩
  | .hbm, ⟨55, _⟩ => ⟨S1000000x16, .f32⟩
  | .hbm, ⟨56, _⟩ => ⟨S1000000x16, .f32⟩
  | .hbm, ⟨57, _⟩ => ⟨S1000000x16, .f32⟩
  | .hbm, ⟨58, _⟩ => ⟨S_, .f32⟩
  | .hbm, ⟨59, _⟩ => ⟨S1000000x16, .f32⟩
  | .hbm, ⟨60, _⟩ => ⟨S1000000x16, .f32⟩
  | .hbm, ⟨61, _⟩ => ⟨S_, .f32⟩
  | .hbm, ⟨62, _⟩ => ⟨S1000000x16, .f32⟩
  | .hbm, ⟨63, _⟩ => ⟨S1000000x16, .f32⟩
  | .hbm, ⟨64, _⟩ => ⟨S1x16, .f32⟩
  | .hbm, ⟨65, _⟩ => ⟨S16, .f32⟩
  | .hbm, ⟨66, _⟩ => ⟨S1x16, .f32⟩
  | .hbm, ⟨67, _⟩ => ⟨S1000000x16, .f32⟩
  | .hbm, ⟨68, _⟩ => ⟨S1000000x16, .f32⟩
  | .hbm, ⟨69, _⟩ => ⟨S1000000x16, .f32⟩
  | .hbm, ⟨70, _⟩ => ⟨S1000000x16, .f32⟩
  | .hbm, ⟨71, _⟩ => ⟨S1000000x16, .f32⟩
  | .hbm, ⟨72, _⟩ => ⟨S1000000x16, .f32⟩
  | .hbm, ⟨73, _⟩ => ⟨S1x16, .f32⟩
  | .hbm, ⟨74, _⟩ => ⟨S16, .f32⟩
  | .hbm, ⟨75, _⟩ => ⟨S1x16, .f32⟩
  | .hbm, ⟨76, _⟩ => ⟨S1000000x16, .f32⟩
  | .hbm, ⟨77, _⟩ => ⟨S1000000x16, .f32⟩
  | .hbm, ⟨78, _⟩ => ⟨S1000000x16, .f32⟩
  | .hbm, ⟨79, _⟩ => ⟨S1x16, .f32⟩
  | .hbm, ⟨80, _⟩ => ⟨S16, .f32⟩
  | .hbm, ⟨81, _⟩ => ⟨S1x16, .f32⟩
  | .hbm, ⟨82, _⟩ => ⟨S1000000x16, .f32⟩
  | .hbm, ⟨83, _⟩ => ⟨S1000000x16, .f32⟩
  | .hbm, ⟨84, _⟩ => ⟨S1000000x16, .f32⟩
  | .hbm, ⟨85, _⟩ => ⟨S1000000x16, .f32⟩
  | .hbm, ⟨86, _⟩ => ⟨S_, .f32⟩
  | .hbm, ⟨87, _⟩ => ⟨S1000000x16, .f32⟩
  | .hbm, ⟨88, _⟩ => ⟨S1000000x16, .f32⟩
  | .hbm, ⟨89, _⟩ => ⟨S_, .f32⟩
  | .hbm, ⟨90, _⟩ => ⟨S1000000x16, .f32⟩
  | .hbm, ⟨91, _⟩ => ⟨S1000000x16, .f32⟩
  | .hbm, ⟨92, _⟩ => ⟨S1000000x16, .f32⟩
  | .hbm, ⟨93, _⟩ => ⟨S1000000x16, .f32⟩
  | .hbm, ⟨94, _⟩ => ⟨S_, .f32⟩
  | .hbm, ⟨95, _⟩ => ⟨S1000000x16, .f32⟩
  | .hbm, ⟨96, _⟩ => ⟨S1000000x16, .f32⟩
  | .hbm, ⟨97, _⟩ => ⟨S1000000x1, .f32⟩
  | .hbm, ⟨98, _⟩ => ⟨S1x1, .f32⟩
  | .hbm, ⟨99, _⟩ => ⟨S1000000x1, .f32⟩
  | .hbm, ⟨100, _⟩ => ⟨S1000000x1, .f32⟩
  | _, _ => ⟨S1000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_cst_0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_1 : Ref sig .tc := ⟨.hbm, 58, rfl⟩
abbrev main_v43 : Ref sig .tc := ⟨.hbm, 59, rfl⟩
abbrev main_v44 : Ref sig .tc := ⟨.hbm, 60, rfl⟩
abbrev main_cst_2 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_3 : Ref sig .tc := ⟨.hbm, 86, rfl⟩
abbrev main_v69 : Ref sig .tc := ⟨.hbm, 87, rfl⟩
abbrev main_v70 : Ref sig .tc := ⟨.hbm, 88, rfl⟩
abbrev main_cst_4 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_call0_cst : Ref sig .tc := ⟨.hbm, 94, rfl⟩
abbrev main_call0_v0 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  slices_S1000000x64_S1000000x16_0_0 : S1000000x64.Slices ![0, 0] S1000000x16
  slices_S1000000x64_S1000000x16_0_16 : S1000000x64.Slices ![0, 16] S1000000x16
  slices_S1000000x64_S1000000x16_0_32 : S1000000x64.Slices ![0, 32] S1000000x16
  slices_S1000000x64_S1000000x16_0_48 : S1000000x64.Slices ![0, 48] S1000000x16
  slices_S3x16_S1x16_0_0 : S3x16.Slices ![0, 0] S1x16
  shapeCasts_S1x16_S16 : S1x16.ShapeCasts S16
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  slices_S4x16_S1x16_0_0 : S4x16.Slices ![0, 0] S1x16
  bcast_S_S1000000x16 : S_.BroadcastsInDim S1000000x16 (![] : Fin 0 → Fin S1000000x16.rank)
  slices_S3x16_S1x16_1_0 : S3x16.Slices ![1, 0] S1x16
  slices_S4x16_S1x16_1_0 : S4x16.Slices ![1, 0] S1x16
  slices_S4x16_S1x16_2_0 : S4x16.Slices ![2, 0] S1x16
  slices_S3x16_S1x16_2_0 : S3x16.Slices ![2, 0] S1x16
  slices_S4x16_S1x16_3_0 : S4x16.Slices ![3, 0] S1x16
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  dot_S1000000x8_S8x64_S1000000x64_1_0_0_1_n_n_wf : DotDims.WF S1000000x8 S8x64 S1000000x64 [1] [0] [0] [1] [] []
  dot_S1000000x16_S16x64_S1000000x64_1_0_0_1_n_n_wf : DotDims.WF S1000000x16 S16x64 S1000000x64 [1] [0] [0] [1] [] []
  dot_S1000000x16_S16x1_S1000000x1_1_0_0_1_n_n_wf : DotDims.WF S1000000x16 S16x1 S1000000x1 [1] [0] [0] [1] [] []

variable [Facts₀]

def dot_S1000000x8_S8x64_S1000000x64_1_0_0_1_n_n : DotDims S1000000x8 S8x64 S1000000x64 where
  lhsContracting := [1]
  rhsContracting := [0]
  lhsNonContracting := [0]
  rhsNonContracting := [1]
  lhsBatch := []
  rhsBatch := []
  wf := dot_S1000000x8_S8x64_S1000000x64_1_0_0_1_n_n_wf
def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def dot_S1000000x16_S16x1_S1000000x1_1_0_0_1_n_n : DotDims S1000000x16 S16x1 S1000000x1 where
  lhsContracting := [1]
  rhsContracting := [0]
  lhsNonContracting := [0]
  rhsNonContracting := [1]
  lhsBatch := []
  rhsBatch := []
  wf := dot_S1000000x16_S16x1_S1000000x1_1_0_0_1_n_n_wf

class Facts : Prop extends Facts₀ where

variable [Facts]
-- ==== Proof.Cell.lean ====
/-
  One node of a graph-convolutional LSTM with peephole connections, on the extended reals.

  A Chebyshev convolution of order one uses no edge: it is a linear map of the node's own features. So the four gate
  pre-activations of a node with features x (8 numbers) and hidden state h (16 numbers) are the 64 numbers

      g j = sum_k x k * Wx (k, j) + sum_k h k * Wh (k, j) + bx j + bh j,

  columns 0..15 the input gate, 16..31 the forget gate, 32..47 the candidate and 48..63 the output gate. With the old cell
  state c, the peephole weights w (3 rows) and the gate biases b (4 rows), entry q of the new cell state is

      c' q = sigmoid (g (16+q) + w (1,q) * c q + b (1,q)) * c q
               + sigmoid (g q + w (0,q) * c q + b (0,q)) * tanh (g (32+q) + b (2,q)),

  entry q of the new hidden state is  h' q = sigmoid (g (48+q) + w (2,q) * c' q + b (3,q)) * tanh (c' q),  and the
  node's output is  sum_k max (h' k) 0 * Wl (k, 0) + bl 0.

  This module states these as functions of one node's rows, then as whole arrays over any number N of nodes, and proves
  the one algebraic law the comparison needs: the sum of the four terms of g may be associated either way.
-/
import Idealize.ShloMosaic.Lib.ValueIdx
import Idealize.ShloMosaic.PureOps.Ideal

noncomputable section

namespace Cert.PeepholeCell

open Idealize.ShloMosaic Idealize.ShloMosaic.ValueIdx

/-- Column o + q of the 64 gate columns, for q among a gate's 16. -/
def col (o : Nat) (ho : o + 16 ≤ 64) (q : Fin 16) : Fin 64 := ⟨o + q.val, by have := q.isLt; omega⟩

theorem col_val (o : Nat) (ho : o + 16 ≤ 64) (q : Fin 16) : (col o ho q).val = o + q.val := rfl

/-- Gate pre-activation j of one node, the four terms summed left to right. -/
def gate (xr : Fin 8 → EReal) (hr : Fin 16 → EReal)
    (Wx : (⟨2, ![8, 64]⟩ : Shape).Idx → EReal) (bx : (⟨1, ![64]⟩ : Shape).Idx → EReal)
    (Wh : (⟨2, ![16, 64]⟩ : Shape).Idx → EReal) (bh : (⟨1, ![64]⟩ : Shape).Idx → EReal) (j : Fin 64) : EReal :=
  (∑ k : Fin 8, xr k * Wx (ix2 k j)) + (∑ k : Fin 16, hr k * Wh (ix2 k j)) + bx (ix1 j) + bh (ix1 j)

/-- The same four terms grouped as (x·Wx + bx) + (h·Wh + bh): addition of extended reals is commutative and
    associative, infinities included, so the grouping does not matter. -/
theorem gate_grouped (xr : Fin 8 → EReal) (hr : Fin 16 → EReal)
    (Wx : (⟨2, ![8, 64]⟩ : Shape).Idx → EReal) (bx : (⟨1, ![64]⟩ : Shape).Idx → EReal)
    (Wh : (⟨2, ![16, 64]⟩ : Shape).Idx → EReal) (bh : (⟨1, ![64]⟩ : Shape).Idx → EReal) (j : Fin 64) :
    ((∑ k : Fin 8, xr k * Wx (ix2 k j)) + bx (ix1 j)) + ((∑ k : Fin 16, hr k * Wh (ix2 k j)) + bh (ix1 j))
      = gate xr hr Wx bx Wh bh j := by
  unfold gate
  rw [add_add_add_comm, ← add_assoc]

/-- Entry q of the new cell state, from the node's 64 gate values and its old cell state. -/
def state (g : Fin 64 → EReal) (cr : Fin 16 → EReal)
    (w : (⟨2, ![3, 16]⟩ : Shape).Idx → EReal) (b : (⟨2, ![4, 16]⟩ : Shape).Idx → EReal) (q : Fin 16) : EReal :=
  Ideal.logistic (g (col 16 (by omega) q) + w (ix2 1 q) * cr q + b (ix2 1 q)) * cr q
    + Ideal.logistic (g (col 0 (by omega) q) + w (ix2 0 q) * cr q + b (ix2 0 q))
        * Ideal.tanh (g (col 32 (by omega) q) + b (ix2 2 q))

/-- Entry q of the new hidden state. -/
def hidden (g : Fin 64 → EReal) (cr : Fin 16 → EReal)
    (w : (⟨2, ![3, 16]⟩ : Shape).Idx → EReal) (b : (⟨2, ![4, 16]⟩ : Shape).Idx → EReal) (q : Fin 16) : EReal :=
  Ideal.logistic (g (col 48 (by omega) q) + w (ix2 2 q) * state g cr w b q + b (ix2 3 q)) * Ideal.tanh (state g cr w b q)

/-- The node's output: the rectified hidden state through the final linear layer. -/
def readout (g : Fin 64 → EReal) (cr : Fin 16 → EReal)
    (w : (⟨2, ![3, 16]⟩ : Shape).Idx → EReal) (b : (⟨2, ![4, 16]⟩ : Shape).Idx → EReal)
    (Wl : (⟨2, ![16, 1]⟩ : Shape).Idx → EReal) (bl : (⟨1, ![1]⟩ : Shape).Idx → EReal) : EReal :=
  (∑ k : Fin 16, max (hidden g cr w b k) 0 * Wl (ix2 k (0 : Fin 1))) + bl (ix1 (0 : Fin 1))

/-! ## Whole arrays over N nodes -/

section Arrays

variable {N : Nat}
variable (x : (⟨2, ![N, 8]⟩ : Shape).Idx → EReal) (h : (⟨2, ![N, 16]⟩ : Shape).Idx → EReal)
  (c : (⟨2, ![N, 16]⟩ : Shape).Idx → EReal)
  (Wx : (⟨2, ![8, 64]⟩ : Shape).Idx → EReal) (bx : (⟨1, ![64]⟩ : Shape).Idx → EReal)
  (Wh : (⟨2, ![16, 64]⟩ : Shape).Idx → EReal) (bh : (⟨1, ![64]⟩ : Shape).Idx → EReal)
  (w : (⟨2, ![3, 16]⟩ : Shape).Idx → EReal) (b : (⟨2, ![4, 16]⟩ : Shape).Idx → EReal)
  (Wl : (⟨2, ![16, 1]⟩ : Shape).Idx → EReal) (bl : (⟨1, ![1]⟩ : Shape).Idx → EReal)

/-- The gate values of node r. -/
def gateRow (r : Fin N) : Fin 64 → EReal :=
  gate (fun k => x (ix2 r k)) (fun k => h (ix2 r k)) Wx bx Wh bh

/-- The old cell state of node r. -/
def cellRow (r : Fin N) : Fin 16 → EReal := fun k => c (ix2 r k)

/-- The new cell states of all nodes. -/
def stateArr : (⟨2, ![N, 16]⟩ : Shape).Idx → EReal := fun i =>
  state (gateRow x h Wx bx Wh bh (i 0)) (cellRow c (i 0)) w b (i 1)

/-- The new hidden states of all nodes. -/
def hiddenArr : (⟨2, ![N, 16]⟩ : Shape).Idx → EReal := fun i =>
  hidden (gateRow x h Wx bx Wh bh (i 0)) (cellRow c (i 0)) w b (i 1)

/-- The outputs of all nodes, one column. -/
def readoutArr : (⟨2, ![N, 1]⟩ : Shape).Idx → EReal := fun i =>
  readout (gateRow x h Wx bx Wh bh (i 0)) (cellRow c (i 0)) w b Wl bl

theorem stateArr_apply (p : Fin N) (q : Fin 16) :
    stateArr x h c Wx bx Wh bh w b (ix2 p q) = state (gateRow x h Wx bx Wh bh p) (cellRow c p) w b q := rfl

theorem hiddenArr_apply (p : Fin N) (q : Fin 16) :
    hiddenArr x h c Wx bx Wh bh w b (ix2 p q) = hidden (gateRow x h Wx bx Wh bh p) (cellRow c p) w b q := rfl

theorem readoutArr_apply (p : Fin N) (z : Fin 1) :
    readoutArr x h c Wx bx Wh bh w b Wl bl (ix2 p z) = readout (gateRow x h Wx bx Wh bh p) (cellRow c p) w b Wl bl := rfl

end Arrays

end Cert.PeepholeCell

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.KernelCell.lean ====
/-
  What the kernel body computes for one node of its block, entry by entry, on the extended reals.

  The body holds a block of 10000 nodes. Its arithmetic reads: the 64 gate values of a node as two matrix products
  into zero accumulators plus the two bias rows broadcast down the block; the four gates as column slices of that
  matrix; a row of the peephole weights or of the gate biases as a one-row slice, recast and broadcast down the
  block; the logistic function and tanh entry by entry; and the output as a third matrix product of the rectified
  hidden state plus a one-entry bias broadcast down. Changing the float format is the identity here, so the
  narrowing of the products' operands drops out. Each stored value, read at one entry, is the function of
  Cell.lean of the node's own rows.
-/
import proofs.«133652_j25890062860561_1_alg».proof.Proof.Gen.KernelIdeal.Skeleton
import proofs.«133652_j25890062860561_1_alg».proof.Proof.Cell
import proofs.«133652_j25890062860561_1_alg».proof.Proof.LibMatmul
import proofs.«133652_j25890062860561_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodeValue

open Cert.KernelIdeal Cert.KernelIdeal.Gen Cert.PeepholeCell
open Idealize.ShloMosaic Idealize.ShloMosaic.ValueIdx

/-! ## Layout pieces -/

/-- Row r of a small table [R, 16], sliced out as one row, recast to a vector and back, and broadcast down A rows,
    holds at (p, q) the table's entry (r, q). -/
theorem tableRow {R A : Nat} (o : Nat) (v : (⟨2, ![R, 16]⟩ : Shape).Idx → EReal)
    (h1 : (⟨2, ![R, 16]⟩ : Shape).Slices ![o, 0] ⟨2, ![1, 16]⟩)
    (h2 : (⟨2, ![1, 16]⟩ : Shape).ShapeCasts ⟨1, ![16]⟩) (h3 : (⟨1, ![16]⟩ : Shape).ShapeCasts ⟨2, ![1, 16]⟩)
    (h4 : (⟨2, ![1, 16]⟩ : Shape).Broadcasts ⟨2, ![A, 16]⟩) (p : Fin A) (q : Fin 16) (r : Fin R) (hr : r.val = o) :
    broadcastTo ⟨2, ![A, 16]⟩ (shapeCast ⟨2, ![1, 16]⟩ (shapeCast ⟨1, ![16]⟩
        (extractStridedSlice ⟨2, ![1, 16]⟩ ![o, 0] v h1) h2) h3) h4 (ix2 p q) = v (ix2 r q) := by
  rw [shapeCast_shapeCast]
  refine (broadcastTo_1b_ab_apply _ h4 p q).trans ?_
  exact slice2_axis0_apply o v h1 (0 : Fin 1) q r (by rw [hr]; rfl)

theorem logistic_apply {s : Shape} {φ : FTy} (a : FVec Ideal s φ) (i : s.Idx) : logistic a i = Ideal.logistic (a i) := rfl

theorem tanh_apply {s : Shape} {φ : FTy} (a : FVec Ideal s φ) (i : s.Idx) : tanh a i = Ideal.tanh (a i) := rfl

/-! ## The gate matrix of the block -/

section

variable (v0 : Vec Ideal S10000x8 .f32) (v1 : Vec Ideal S10000x16 .f32) (v2 : Vec Ideal S10000x16 .f32)
  (v5 : Vec Ideal S8x64 .f32) (v7 : Vec Ideal S16x64 .f32) (v12 : Vec Ideal S64 .f32) (v16 : Vec Ideal S64 .f32)
  (v24 : Vec Ideal S3x16 .f32) (v25 : Vec Ideal S4x16 .f32) (v76 : Vec Ideal S16x1 .f32) (v79 : Vec Ideal S1 .f32)

/-- Entry (p, j) of the block's gate matrix is gate value j of node p. -/
theorem gates_apply (p : Fin 10000) (j : Fin 64) :
    k0_pay1 (F := Ideal) v0 v1 v5 v7 v12 v16 (ix2 p j) = gateRow v0 v1 v5 v12 v7 v16 p j := by
  have hA : matmul (F := Ideal) dot_S10000x8_S8x64_S10000x64_1_0_0_1_n_n none (truncf .bf16 v0 bitsLt_bf16_f32)
      (truncf .bf16 v5 bitsLt_bf16_f32) (constant S10000x64 .f32 0x00000000#32) (ix2 p j)
        = ∑ k : Fin 8, (v0 (ix2 p k) : EReal) * (v5 (ix2 k j) : EReal) :=
    Cert.Lib.Matmul.matmul_zero_apply (A := 10000) (K := 8) (C := 64) none
      (truncf .bf16 v0 bitsLt_bf16_f32) (truncf .bf16 v5 bitsLt_bf16_f32) p j
  have hB : matmul (F := Ideal) dot_S10000x16_S16x64_S10000x64_1_0_0_1_n_n none (truncf .bf16 v1 bitsLt_bf16_f32)
      (truncf .bf16 v7 bitsLt_bf16_f32) (constant S10000x64 .f32 0x00000000#32) (ix2 p j)
        = ∑ k : Fin 16, (v1 (ix2 p k) : EReal) * (v7 (ix2 k j) : EReal) :=
    Cert.Lib.Matmul.matmul_zero_apply (A := 10000) (K := 16) (C := 64) none
      (truncf .bf16 v1 bitsLt_bf16_f32) (truncf .bf16 v7 bitsLt_bf16_f32) p j
  have hx : broadcastTo S10000x64 (shapeCast S1x64 v12 shapeCasts_S64_S1x64) broadcasts_S1x64_S10000x64 (ix2 p j)
      = v12 (ix1 j) := Cert.Lib.Layout.bcastRow_apply (A := 10000) (B := 64) v12 _ _ p j
  have hh : broadcastTo S10000x64 (shapeCast S1x64 v16 shapeCasts_S64_S1x64) broadcasts_S1x64_S10000x64 (ix2 p j)
      = v16 (ix1 j) := Cert.Lib.Layout.bcastRow_apply (A := 10000) (B := 64) v16 _ _ p j
  unfold k0_pay1
  simp only [addf_apply]
  rw [hA, hB, hx, hh]
  rfl

/-- The column slice at offset o of the gate matrix, at (p, q), is gate value o + q of node p. -/
theorem gateSlice_apply (o : Nat) (ho : o + 16 ≤ 64) (hs : S10000x64.Slices ![0, o] S10000x16) (p : Fin 10000) (q : Fin 16) :
    extractStridedSlice S10000x16 ![0, o] (k0_pay1 (F := Ideal) v0 v1 v5 v7 v12 v16) hs (ix2 p q)
      = gateRow v0 v1 v5 v12 v7 v16 p (col o ho q) :=
  (slice2_axis1_apply o (k0_pay1 (F := Ideal) v0 v1 v5 v7 v12 v16) hs p q (col o ho q) rfl).trans
    (gates_apply v0 v1 v5 v7 v12 v16 p (col o ho q))

/-- The input gate of the block, at (p, q): the logistic function of its pre-activation with the peephole term
    and the bias. -/
theorem inputGate_apply (p : Fin 10000) (q : Fin 16) :
    k0_pay5 (F := Ideal) v0 v1 v2 v5 v7 v12 v16 v24 v25 (ix2 p q)
      = Ideal.logistic (gateRow v0 v1 v5 v12 v7 v16 p (col 0 (by omega) q) + v24 (ix2 0 q) * v2 (ix2 p q) + v25 (ix2 0 q)) := by
  have e0 := gateSlice_apply v0 v1 v5 v7 v12 v16 0 (by omega) slices_S10000x64_o0_0_S10000x16 p q
  have w0 := tableRow (A := 10000) 0 v24 slices_S3x16_o0_0_S1x16 shapeCasts_S1x16_S16 shapeCasts_S16_S1x16
    broadcasts_S1x16_S10000x16 p q (0 : Fin 3) rfl
  have b0 := tableRow (A := 10000) 0 v25 slices_S4x16_o0_0_S1x16 shapeCasts_S1x16_S16 shapeCasts_S16_S1x16
    broadcasts_S1x16_S10000x16 p q (0 : Fin 4) rfl
  unfold k0_pay5
  simp only [addf_apply, mulf_apply, logistic_apply]
  rw [e0, w0, b0]

/-- The stored new cell state of the block, at (p, q), is entry q of node p's new cell state. -/
theorem state_apply (p : Fin 10000) (q : Fin 16) :
    k0_pay7 (F := Ideal) v2 (k0_pay2 v0 v1 v5 v7 v12 v16) (k0_pay3 v0 v1 v5 v7 v12 v16) v25
        (k0_pay5 v0 v1 v2 v5 v7 v12 v16 v24 v25) (k0_pay6 v24) (ix2 p q)
      = state (gateRow v0 v1 v5 v12 v7 v16 p) (cellRow v2 p) v24 v25 q := by
  have e1 : k0_pay2 (F := Ideal) v0 v1 v5 v7 v12 v16 (ix2 p q) = gateRow v0 v1 v5 v12 v7 v16 p (col 16 (by omega) q) :=
    gateSlice_apply v0 v1 v5 v7 v12 v16 16 (by omega) slices_S10000x64_o0_16_S10000x16 p q
  have e2 : k0_pay3 (F := Ideal) v0 v1 v5 v7 v12 v16 (ix2 p q) = gateRow v0 v1 v5 v12 v7 v16 p (col 32 (by omega) q) :=
    gateSlice_apply v0 v1 v5 v7 v12 v16 32 (by omega) slices_S10000x64_o0_32_S10000x16 p q
  have w1 : broadcastTo S10000x16 (k0_pay6 (F := Ideal) v24) broadcasts_S1x16_S10000x16 (ix2 p q) = v24 (ix2 1 q) :=
    tableRow (A := 10000) 1 v24 slices_S3x16_o1_0_S1x16 shapeCasts_S1x16_S16 shapeCasts_S16_S1x16
      broadcasts_S1x16_S10000x16 p q (1 : Fin 3) rfl
  have b1 := tableRow (A := 10000) 1 v25 slices_S4x16_o1_0_S1x16 shapeCasts_S1x16_S16 shapeCasts_S16_S1x16
    broadcasts_S1x16_S10000x16 p q (1 : Fin 4) rfl
  have b2 := tableRow (A := 10000) 2 v25 slices_S4x16_o2_0_S1x16 shapeCasts_S1x16_S16 shapeCasts_S16_S1x16
    broadcasts_S1x16_S10000x16 p q (2 : Fin 4) rfl
  have ei := inputGate_apply v0 v1 v2 v5 v7 v12 v16 v24 v25 p q
  unfold k0_pay7
  simp only [addf_apply, mulf_apply, logistic_apply, tanh_apply]
  rw [e1, e2, w1, b1, b2, ei]
  rfl

/-- The stored new hidden state of the block, at (p, q), is entry q of node p's new hidden state. -/
theorem hidden_apply (p : Fin 10000) (q : Fin 16) :
    k0_pay8 (F := Ideal) v2 (k0_pay2 v0 v1 v5 v7 v12 v16) (k0_pay3 v0 v1 v5 v7 v12 v16) (k0_pay4 v0 v1 v5 v7 v12 v16)
        v24 v25 (k0_pay5 v0 v1 v2 v5 v7 v12 v16 v24 v25) (k0_pay6 v24) (ix2 p q)
      = hidden (gateRow v0 v1 v5 v12 v7 v16 p) (cellRow v2 p) v24 v25 q := by
  have e3 : k0_pay4 (F := Ideal) v0 v1 v5 v7 v12 v16 (ix2 p q) = gateRow v0 v1 v5 v12 v7 v16 p (col 48 (by omega) q) :=
    gateSlice_apply v0 v1 v5 v7 v12 v16 48 (by omega) slices_S10000x64_o0_48_S10000x16 p q
  have w2 := tableRow (A := 10000) 2 v24 slices_S3x16_o2_0_S1x16 shapeCasts_S1x16_S16 shapeCasts_S16_S1x16
    broadcasts_S1x16_S10000x16 p q (2 : Fin 3) rfl
  have b3 := tableRow (A := 10000) 3 v25 slices_S4x16_o3_0_S1x16 shapeCasts_S1x16_S16 shapeCasts_S16_S1x16
    broadcasts_S1x16_S10000x16 p q (3 : Fin 4) rfl
  have es := state_apply v0 v1 v2 v5 v7 v12 v16 v24 v25 p q
  unfold k0_pay8
  simp only [addf_apply, mulf_apply, logistic_apply, tanh_apply]
  rw [e3, w2, b3, es]
  rfl

/-- The stored output column of the block, at (p, 0), is node p's output. -/
theorem readout_apply (p : Fin 10000) :
    k0_pay9 (F := Ideal) v2 (k0_pay2 v0 v1 v5 v7 v12 v16) (k0_pay3 v0 v1 v5 v7 v12 v16) (k0_pay4 v0 v1 v5 v7 v12 v16)
        v24 v25 (k0_pay5 v0 v1 v2 v5 v7 v12 v16 v24 v25) (k0_pay6 v24) v76 v79 (ix2 p (0 : Fin 1))
      = readout (gateRow v0 v1 v5 v12 v7 v16 p) (cellRow v2 p) v24 v25 v76 v79 := by
  have hb : broadcastTo S10000x1 (shapeCast S1x1 v79 shapeCasts_S1_S1x1) broadcasts_S1x1_S10000x1 (ix2 p (0 : Fin 1))
      = v79 (ix1 (0 : Fin 1)) := Cert.Lib.Layout.bcastRow_apply (A := 10000) (B := 1) v79 _ _ p 0
  unfold k0_pay9
  simp only [addf_apply]
  rw [hb]
  refine congrArg (· + v79 (ix1 (0 : Fin 1))) ?_
  refine (Cert.Lib.Matmul.matmul_zero_apply (A := 10000) (K := 16) (C := 1) none _ _ p 0).trans ?_
  refine Finset.sum_congr rfl fun k _ => ?_
  refine congrArg (· * (v76 (ix2 k (0 : Fin 1)) : EReal)) ?_
  show max (k0_pay8 (F := Ideal) v2 (k0_pay2 v0 v1 v5 v7 v12 v16) (k0_pay3 v0 v1 v5 v7 v12 v16) (k0_pay4 v0 v1 v5 v7 v12 v16)
        v24 v25 (k0_pay5 v0 v1 v2 v5 v7 v12 v16 v24 v25) (k0_pay6 v24) (ix2 p k)) (Ideal.ofBits .f32 0x00000000#32)
      = max (hidden (gateRow v0 v1 v5 v12 v7 v16 p) (cellRow v2 p) v24 v25 k) 0
  rw [hidden_apply, Ideal.ofBits_zero_f32]

end

end Cert.KernelIdeal.NodeValue

end
-- ==== Proof.KernelArrays.lean ====
/-
  The three result arrays of the kernel's run, as whole arrays over the million nodes.

  The grid has 100 points; point t stages rows 10000 t .. 10000 t + 9999 of the node features, of the hidden state and
  of the cell state, and the eight small parameter arrays whole. What it writes back to rows 10000 t .. 10000 t + 9999
  of each result is, entry by entry, the function of Cell.lean of the node's own rows (KernelCell.lean), and the row
  of node 10000 t + p in the whole array is row p of the block. The 100 blocks cover every row, so each result array
  ends as that function of the argument arrays.
-/
import proofs.«133652_j25890062860561_1_alg».proof.Proof.Gen.KernelIdeal.Value
import proofs.«133652_j25890062860561_1_alg».proof.Proof.KernelCell

set_option maxRecDepth 16384

noncomputable section

namespace Cert.KernelIdeal.NodeArrays

open Cert.KernelIdeal Cert.KernelIdeal.Gen Cert.KernelIdeal.NodeValue Cert.PeepholeCell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## Which block each point stages -/

/-- The row-blocked windows (the three node arrays and the three results) stage block t at point t. -/
theorem idx_rows : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_11.index t (0 : Fin 2) = t.val
    ∧ win0_11.index t (1 : Fin 2) = 0
    ∧ win0_12.index t (0 : Fin 2) = t.val
    ∧ win0_12.index t (1 : Fin 2) = 0
    ∧ win0_13.index t (0 : Fin 2) = t.val
    ∧ win0_13.index t (1 : Fin 2) = 0 :=
  (by decide +kernel : ∀ t : Fin grid0.N, _)

/-- The parameter windows stage their one block at every point. -/
theorem idx_tables : ∀ t : Fin cfg0.N, win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 1) = 0 :=
  (by decide +kernel : ∀ t : Fin grid0.N, _)

/-- Node 10000 t + p: row p of point t's block. -/
def node (t : Fin cfg0.N) (p : Fin 10000) : Fin 1000000 :=
  ⟨t.val * 10000 + p.val, by have ht : t.val < 100 := t.isLt; have hp := p.isLt; omega⟩

theorem node_val (t : Fin cfg0.N) (p : Fin 10000) : (node t p).val = t.val * 10000 + p.val := rfl

/-- Row p of window 0's block at point t is the row of node 10000 t + p. -/
theorem blk0_apply (c : Dev nD) (t : Fin cfg0.N) (p : Fin 10000) (k : Fin 8) :
    iblk m c 0 t (ix2 p k) = V m c main_arg0 (ix2 (node t p) k) := by
  show V m c main_arg0 (((cfg0.win 0).blk t).view.emb (ix2 p k)) = V m c main_arg0 (ix2 (node t p) k)
  refine congrArg (V m c main_arg0) ?_
  obtain ⟨r0_0, r0_1, r1_0, r1_1, r2_0, r2_1, r11_0, r11_1, r12_0, r12_1, r13_0, r13_1⟩ := idx_rows t
  funext a; apply Fin.ext
  match a with
  | ⟨0, _⟩ => show win0_0.index t (0 : Fin 2) * 10000 + 1 * p.val = t.val * 10000 + p.val; rw [r0_0]; omega
  | ⟨1, _⟩ => show win0_0.index t (1 : Fin 2) * 8 + 1 * k.val = k.val; rw [r0_1]; omega

/-- Row p of window 1's block at point t is the row of node 10000 t + p. -/
theorem blk1_apply (c : Dev nD) (t : Fin cfg0.N) (p : Fin 10000) (k : Fin 16) :
    iblk m c 1 t (ix2 p k) = V m c main_arg3 (ix2 (node t p) k) := by
  show V m c main_arg3 (((cfg0.win 1).blk t).view.emb (ix2 p k)) = V m c main_arg3 (ix2 (node t p) k)
  refine congrArg (V m c main_arg3) ?_
  obtain ⟨r0_0, r0_1, r1_0, r1_1, r2_0, r2_1, r11_0, r11_1, r12_0, r12_1, r13_0, r13_1⟩ := idx_rows t
  funext a; apply Fin.ext
  match a with
  | ⟨0, _⟩ => show win0_1.index t (0 : Fin 2) * 10000 + 1 * p.val = t.val * 10000 + p.val; rw [r1_0]; omega
  | ⟨1, _⟩ => show win0_1.index t (1 : Fin 2) * 16 + 1 * k.val = k.val; rw [r1_1]; omega

/-- Row p of window 2's block at point t is the row of node 10000 t + p. -/
theorem blk2_apply (c : Dev nD) (t : Fin cfg0.N) (p : Fin 10000) (k : Fin 16) :
    iblk m c 2 t (ix2 p k) = V m c main_arg4 (ix2 (node t p) k) := by
  show V m c main_arg4 (((cfg0.win 2).blk t).view.emb (ix2 p k)) = V m c main_arg4 (ix2 (node t p) k)
  refine congrArg (V m c main_arg4) ?_
  obtain ⟨r0_0, r0_1, r1_0, r1_1, r2_0, r2_1, r11_0, r11_1, r12_0, r12_1, r13_0, r13_1⟩ := idx_rows t
  funext a; apply Fin.ext
  match a with
  | ⟨0, _⟩ => show win0_2.index t (0 : Fin 2) * 10000 + 1 * p.val = t.val * 10000 + p.val; rw [r2_0]; omega
  | ⟨1, _⟩ => show win0_2.index t (1 : Fin 2) * 16 + 1 * k.val = k.val; rw [r2_1]; omega

/-- Window 3's block is its whole array at every point. -/
theorem blk3_eq (c : Dev nD) (t : Fin cfg0.N) : iblk m c 3 t = V m c main_arg5 := by
  funext y
  show V m c main_arg5 (((cfg0.win 3).blk t).view.emb y) = V m c main_arg5 y
  refine congrArg (V m c main_arg5) ?_
  obtain ⟨z3_0, z3_1, z4_0, z5_0, z5_1, z6_0, z7_0, z7_1, z8_0, z8_1, z9_0, z9_1, z10_0⟩ := idx_tables t
  funext a; apply Fin.ext
  match a with
  | ⟨0, _⟩ => show win0_3.index t (0 : Fin 2) * 8 + 1 * (y 0).val = (y 0).val; rw [z3_0]; omega
  | ⟨1, _⟩ => show win0_3.index t (1 : Fin 2) * 64 + 1 * (y 1).val = (y 1).val; rw [z3_1]; omega

/-- Window 4's block is its whole array at every point. -/
theorem blk4_eq (c : Dev nD) (t : Fin cfg0.N) : iblk m c 4 t = V m c main_arg6 := by
  funext y
  show V m c main_arg6 (((cfg0.win 4).blk t).view.emb y) = V m c main_arg6 y
  refine congrArg (V m c main_arg6) ?_
  obtain ⟨z3_0, z3_1, z4_0, z5_0, z5_1, z6_0, z7_0, z7_1, z8_0, z8_1, z9_0, z9_1, z10_0⟩ := idx_tables t
  funext a; apply Fin.ext
  match a with
  | ⟨0, _⟩ => show win0_4.index t (0 : Fin 1) * 64 + 1 * (y 0).val = (y 0).val; rw [z4_0]; omega

/-- Window 5's block is its whole array at every point. -/
theorem blk5_eq (c : Dev nD) (t : Fin cfg0.N) : iblk m c 5 t = V m c main_arg7 := by
  funext y
  show V m c main_arg7 (((cfg0.win 5).blk t).view.emb y) = V m c main_arg7 y
  refine congrArg (V m c main_arg7) ?_
  obtain ⟨z3_0, z3_1, z4_0, z5_0, z5_1, z6_0, z7_0, z7_1, z8_0, z8_1, z9_0, z9_1, z10_0⟩ := idx_tables t
  funext a; apply Fin.ext
  match a with
  | ⟨0, _⟩ => show win0_5.index t (0 : Fin 2) * 16 + 1 * (y 0).val = (y 0).val; rw [z5_0]; omega
  | ⟨1, _⟩ => show win0_5.index t (1 : Fin 2) * 64 + 1 * (y 1).val = (y 1).val; rw [z5_1]; omega

/-- Window 6's block is its whole array at every point. -/
theorem blk6_eq (c : Dev nD) (t : Fin cfg0.N) : iblk m c 6 t = V m c main_arg8 := by
  funext y
  show V m c main_arg8 (((cfg0.win 6).blk t).view.emb y) = V m c main_arg8 y
  refine congrArg (V m c main_arg8) ?_
  obtain ⟨z3_0, z3_1, z4_0, z5_0, z5_1, z6_0, z7_0, z7_1, z8_0, z8_1, z9_0, z9_1, z10_0⟩ := idx_tables t
  funext a; apply Fin.ext
  match a with
  | ⟨0, _⟩ => show win0_6.index t (0 : Fin 1) * 64 + 1 * (y 0).val = (y 0).val; rw [z6_0]; omega

/-- Window 7's block is its whole array at every point. -/
theorem blk7_eq (c : Dev nD) (t : Fin cfg0.N) : iblk m c 7 t = V m c main_arg9 := by
  funext y
  show V m c main_arg9 (((cfg0.win 7).blk t).view.emb y) = V m c main_arg9 y
  refine congrArg (V m c main_arg9) ?_
  obtain ⟨z3_0, z3_1, z4_0, z5_0, z5_1, z6_0, z7_0, z7_1, z8_0, z8_1, z9_0, z9_1, z10_0⟩ := idx_tables t
  funext a; apply Fin.ext
  match a with
  | ⟨0, _⟩ => show win0_7.index t (0 : Fin 2) * 3 + 1 * (y 0).val = (y 0).val; rw [z7_0]; omega
  | ⟨1, _⟩ => show win0_7.index t (1 : Fin 2) * 16 + 1 * (y 1).val = (y 1).val; rw [z7_1]; omega

/-- Window 8's block is its whole array at every point. -/
theorem blk8_eq (c : Dev nD) (t : Fin cfg0.N) : iblk m c 8 t = V m c main_arg10 := by
  funext y
  show V m c main_arg10 (((cfg0.win 8).blk t).view.emb y) = V m c main_arg10 y
  refine congrArg (V m c main_arg10) ?_
  obtain ⟨z3_0, z3_1, z4_0, z5_0, z5_1, z6_0, z7_0, z7_1, z8_0, z8_1, z9_0, z9_1, z10_0⟩ := idx_tables t
  funext a; apply Fin.ext
  match a with
  | ⟨0, _⟩ => show win0_8.index t (0 : Fin 2) * 4 + 1 * (y 0).val = (y 0).val; rw [z8_0]; omega
  | ⟨1, _⟩ => show win0_8.index t (1 : Fin 2) * 16 + 1 * (y 1).val = (y 1).val; rw [z8_1]; omega

/-- Window 9's block is its whole array at every point. -/
theorem blk9_eq (c : Dev nD) (t : Fin cfg0.N) : iblk m c 9 t = V m c main_arg11 := by
  funext y
  show V m c main_arg11 (((cfg0.win 9).blk t).view.emb y) = V m c main_arg11 y
  refine congrArg (V m c main_arg11) ?_
  obtain ⟨z3_0, z3_1, z4_0, z5_0, z5_1, z6_0, z7_0, z7_1, z8_0, z8_1, z9_0, z9_1, z10_0⟩ := idx_tables t
  funext a; apply Fin.ext
  match a with
  | ⟨0, _⟩ => show win0_9.index t (0 : Fin 2) * 16 + 1 * (y 0).val = (y 0).val; rw [z9_0]; omega
  | ⟨1, _⟩ => show win0_9.index t (1 : Fin 2) * 1 + 1 * (y 1).val = (y 1).val; rw [z9_1]; omega

/-- Window 10's block is its whole array at every point. -/
theorem blk10_eq (c : Dev nD) (t : Fin cfg0.N) : iblk m c 10 t = V m c main_arg12 := by
  funext y
  show V m c main_arg12 (((cfg0.win 10).blk t).view.emb y) = V m c main_arg12 y
  refine congrArg (V m c main_arg12) ?_
  obtain ⟨z3_0, z3_1, z4_0, z5_0, z5_1, z6_0, z7_0, z7_1, z8_0, z8_1, z9_0, z9_1, z10_0⟩ := idx_tables t
  funext a; apply Fin.ext
  match a with
  | ⟨0, _⟩ => show win0_10.index t (0 : Fin 1) * 1 + 1 * (y 0).val = (y 0).val; rw [z10_0]; omega

/-- The gate values of row p of point t's blocks are those of node 10000 t + p. -/
theorem gateRow_blk (c : Dev nD) (t : Fin cfg0.N) (p : Fin 10000) :
    gateRow (iblk m c 0 t) (iblk m c 1 t) (iblk m c 3 t) (iblk m c 4 t) (iblk m c 5 t) (iblk m c 6 t) p
      = gateRow (V m c main_arg0) (V m c main_arg3) (V m c main_arg5) (V m c main_arg6) (V m c main_arg7) (V m c main_arg8) (node t p) := by
  unfold gateRow
  rw [blk3_eq, blk4_eq, blk5_eq, blk6_eq]
  refine congrArg₂ (fun xr hr => gate xr hr (V m c main_arg5) (V m c main_arg6) (V m c main_arg7) (V m c main_arg8)) ?_ ?_
  · exact funext fun k => blk0_apply m c t p k
  · exact funext fun k => blk1_apply m c t p k

/-- The old cell state of row p of point t's block is that of node 10000 t + p. -/
theorem cellRow_blk (c : Dev nD) (t : Fin cfg0.N) (p : Fin 10000) :
    cellRow (iblk m c 2 t) p = cellRow (V m c main_arg4) (node t p) :=
  funext fun k => blk2_apply m c t p k

/-- Entry (p, q) of result window 11's block at point t lies at (10000 t + p, q) of its array. -/
theorem emb11 (t : Fin cfg0.N) (p : Fin 10000) (q : Fin 1) :
    ((cfg0.win 11).blk t).view.emb (ix2 p q) = (ix2 (node t p) q : S1000000x1.Idx) := by
  obtain ⟨r0_0, r0_1, r1_0, r1_1, r2_0, r2_1, r11_0, r11_1, r12_0, r12_1, r13_0, r13_1⟩ := idx_rows t
  funext a; apply Fin.ext
  match a with
  | ⟨0, _⟩ => show win0_11.index t (0 : Fin 2) * 10000 + 1 * p.val = t.val * 10000 + p.val; rw [r11_0]; omega
  | ⟨1, _⟩ => show win0_11.index t (1 : Fin 2) * 1 + 1 * q.val = q.val; rw [r11_1]; omega

/-- An index of result 11's array is in point t's block iff each coordinate is in the block's range. -/
theorem mem_blk11 (t : Fin cfg0.N) (i : S1000000x1.Idx) :
    i ∈ ((cfg0.win 11).blk t).view.set ↔ ∀ a : Fin 2, win0_11.index t a * S10000x1.size a ≤ (i a).val ∧ (i a).val < win0_11.index t a * S10000x1.size a + S10000x1.size a := by
  show i ∈ ((View.whole main_v0_0).slice (win0_11.rect t)).set ↔ _
  rw [View.set_slice_whole, Rect.mem_set_unit]
  exact Iff.rfl

/-- Every index of result 11's array is in the block of the point that holds its row. -/
theorem cover11 (i : S1000000x1.Idx) :
    ∃ t : Fin cfg0.N, (cfg0.win 11).flush t = true ∧ i ∈ ((cfg0.win 11).blk t).view.set := by
  have hi0 : (i 0).val < 1000000 := (i 0).isLt
  have hi1 : (i 1).val < 1 := (i 1).isLt
  have ht : (i 0).val / 10000 < cfg0.N := by show (i 0).val / 10000 < 100; omega
  refine ⟨⟨(i 0).val / 10000, ht⟩, flush0_11 _, ?_⟩
  rw [mem_blk11]
  obtain ⟨r0_0, r0_1, r1_0, r1_1, r2_0, r2_1, r11_0, r11_1, r12_0, r12_1, r13_0, r13_1⟩ := idx_rows ⟨(i 0).val / 10000, ht⟩
  have e0 : win0_11.index ⟨(i 0).val / 10000, ht⟩ (0 : Fin 2) = (i 0).val / 10000 := r11_0
  intro a
  match a with
  | ⟨0, _⟩ => show win0_11.index ⟨(i 0).val / 10000, ht⟩ (0 : Fin 2) * 10000 ≤ (i 0).val ∧ (i 0).val < win0_11.index ⟨(i 0).val / 10000, ht⟩ (0 : Fin 2) * 10000 + 10000; rw [e0]; omega
  | ⟨1, _⟩ => show win0_11.index ⟨(i 0).val / 10000, ht⟩ (1 : Fin 2) * 1 ≤ (i 1).val ∧ (i 1).val < win0_11.index ⟨(i 0).val / 10000, ht⟩ (1 : Fin 2) * 1 + 1; rw [r11_1]; omega

/-- Entry (p, q) of result window 12's block at point t lies at (10000 t + p, q) of its array. -/
theorem emb12 (t : Fin cfg0.N) (p : Fin 10000) (q : Fin 16) :
    ((cfg0.win 12).blk t).view.emb (ix2 p q) = (ix2 (node t p) q : S1000000x16.Idx) := by
  obtain ⟨r0_0, r0_1, r1_0, r1_1, r2_0, r2_1, r11_0, r11_1, r12_0, r12_1, r13_0, r13_1⟩ := idx_rows t
  funext a; apply Fin.ext
  match a with
  | ⟨0, _⟩ => show win0_12.index t (0 : Fin 2) * 10000 + 1 * p.val = t.val * 10000 + p.val; rw [r12_0]; omega
  | ⟨1, _⟩ => show win0_12.index t (1 : Fin 2) * 16 + 1 * q.val = q.val; rw [r12_1]; omega

/-- An index of result 12's array is in point t's block iff each coordinate is in the block's range. -/
theorem mem_blk12 (t : Fin cfg0.N) (i : S1000000x16.Idx) :
    i ∈ ((cfg0.win 12).blk t).view.set ↔ ∀ a : Fin 2, win0_12.index t a * S10000x16.size a ≤ (i a).val ∧ (i a).val < win0_12.index t a * S10000x16.size a + S10000x16.size a := by
  show i ∈ ((View.whole main_v0_1).slice (win0_12.rect t)).set ↔ _
  rw [View.set_slice_whole, Rect.mem_set_unit]
  exact Iff.rfl

/-- Every index of result 12's array is in the block of the point that holds its row. -/
theorem cover12 (i : S1000000x16.Idx) :
    ∃ t : Fin cfg0.N, (cfg0.win 12).flush t = true ∧ i ∈ ((cfg0.win 12).blk t).view.set := by
  have hi0 : (i 0).val < 1000000 := (i 0).isLt
  have hi1 : (i 1).val < 16 := (i 1).isLt
  have ht : (i 0).val / 10000 < cfg0.N := by show (i 0).val / 10000 < 100; omega
  refine ⟨⟨(i 0).val / 10000, ht⟩, flush0_12 _, ?_⟩
  rw [mem_blk12]
  obtain ⟨r0_0, r0_1, r1_0, r1_1, r2_0, r2_1, r11_0, r11_1, r12_0, r12_1, r13_0, r13_1⟩ := idx_rows ⟨(i 0).val / 10000, ht⟩
  have e0 : win0_12.index ⟨(i 0).val / 10000, ht⟩ (0 : Fin 2) = (i 0).val / 10000 := r12_0
  intro a
  match a with
  | ⟨0, _⟩ => show win0_12.index ⟨(i 0).val / 10000, ht⟩ (0 : Fin 2) * 10000 ≤ (i 0).val ∧ (i 0).val < win0_12.index ⟨(i 0).val / 10000, ht⟩ (0 : Fin 2) * 10000 + 10000; rw [e0]; omega
  | ⟨1, _⟩ => show win0_12.index ⟨(i 0).val / 10000, ht⟩ (1 : Fin 2) * 16 ≤ (i 1).val ∧ (i 1).val < win0_12.index ⟨(i 0).val / 10000, ht⟩ (1 : Fin 2) * 16 + 16; rw [r12_1]; omega

/-- Entry (p, q) of result window 13's block at point t lies at (10000 t + p, q) of its array. -/
theorem emb13 (t : Fin cfg0.N) (p : Fin 10000) (q : Fin 16) :
    ((cfg0.win 13).blk t).view.emb (ix2 p q) = (ix2 (node t p) q : S1000000x16.Idx) := by
  obtain ⟨r0_0, r0_1, r1_0, r1_1, r2_0, r2_1, r11_0, r11_1, r12_0, r12_1, r13_0, r13_1⟩ := idx_rows t
  funext a; apply Fin.ext
  match a with
  | ⟨0, _⟩ => show win0_13.index t (0 : Fin 2) * 10000 + 1 * p.val = t.val * 10000 + p.val; rw [r13_0]; omega
  | ⟨1, _⟩ => show win0_13.index t (1 : Fin 2) * 16 + 1 * q.val = q.val; rw [r13_1]; omega

/-- An index of result 13's array is in point t's block iff each coordinate is in the block's range. -/
theorem mem_blk13 (t : Fin cfg0.N) (i : S1000000x16.Idx) :
    i ∈ ((cfg0.win 13).blk t).view.set ↔ ∀ a : Fin 2, win0_13.index t a * S10000x16.size a ≤ (i a).val ∧ (i a).val < win0_13.index t a * S10000x16.size a + S10000x16.size a := by
  show i ∈ ((View.whole main_v0_2).slice (win0_13.rect t)).set ↔ _
  rw [View.set_slice_whole, Rect.mem_set_unit]
  exact Iff.rfl

/-- Every index of result 13's array is in the block of the point that holds its row. -/
theorem cover13 (i : S1000000x16.Idx) :
    ∃ t : Fin cfg0.N, (cfg0.win 13).flush t = true ∧ i ∈ ((cfg0.win 13).blk t).view.set := by
  have hi0 : (i 0).val < 1000000 := (i 0).isLt
  have hi1 : (i 1).val < 16 := (i 1).isLt
  have ht : (i 0).val / 10000 < cfg0.N := by show (i 0).val / 10000 < 100; omega
  refine ⟨⟨(i 0).val / 10000, ht⟩, flush0_13 _, ?_⟩
  rw [mem_blk13]
  obtain ⟨r0_0, r0_1, r1_0, r1_1, r2_0, r2_1, r11_0, r11_1, r12_0, r12_1, r13_0, r13_1⟩ := idx_rows ⟨(i 0).val / 10000, ht⟩
  have e0 : win0_13.index ⟨(i 0).val / 10000, ht⟩ (0 : Fin 2) = (i 0).val / 10000 := r13_0
  intro a
  match a with
  | ⟨0, _⟩ => show win0_13.index ⟨(i 0).val / 10000, ht⟩ (0 : Fin 2) * 10000 ≤ (i 0).val ∧ (i 0).val < win0_13.index ⟨(i 0).val / 10000, ht⟩ (0 : Fin 2) * 10000 + 10000; rw [e0]; omega
  | ⟨1, _⟩ => show win0_13.index ⟨(i 0).val / 10000, ht⟩ (1 : Fin 2) * 16 ≤ (i 1).val ∧ (i 1).val < win0_13.index ⟨(i 0).val / 10000, ht⟩ (1 : Fin 2) * 16 + 16; rw [r13_1]; omega

/-! ## What each point writes back -/

/-- Point t writes back block t of the new cell states. -/
theorem flushed_state (c : Dev nD) (t : Fin cfg0.N) :
    (dats m 0 c).flushed 13 t = ((cfg0.win 13).blk t).view.read (Elt Ideal) (stateArr (V m c main_arg0) (V m c main_arg3) (V m c main_arg4) (V m c main_arg5) (V m c main_arg6) (V m c main_arg7) (V m c main_arg8) (V m c main_arg9) (V m c main_arg10)) := by
  rw [Value.flushed13]
  unfold out0_13
  rw [View.canon_unit_zero hz2]
  simp only [View.ld_unit_zero (S := S10000x8) hz2, View.ld_unit_zero (S := S10000x16) hz2, View.ld_unit_zero (S := S8x64) hz2, View.ld_unit_zero (S := S16x64) hz2, View.ld_unit_zero (S := S3x16) hz2, View.ld_unit_zero (S := S4x16) hz2, View.ld_unit_zero (S := S16x1) hz2, View.ld_unit_zero (S := S64) hz1, View.ld_unit_zero (S := S1) hz1]
  funext y
  obtain ⟨p, q, rfl⟩ : ∃ (p : Fin 10000) (q : Fin 16), y = ix2 p q := ⟨y 0, y 1, eq_ix2 y⟩
  refine (state_apply (iblk m c 0 t) (iblk m c 1 t) (iblk m c 2 t) (iblk m c 3 t) (iblk m c 5 t) (iblk m c 4 t) (iblk m c 6 t) (iblk m c 7 t) (iblk m c 8 t) p q).trans ?_
  show _ = stateArr (V m c main_arg0) (V m c main_arg3) (V m c main_arg4) (V m c main_arg5) (V m c main_arg6) (V m c main_arg7) (V m c main_arg8) (V m c main_arg9) (V m c main_arg10) (((cfg0.win 13).blk t).view.emb (ix2 p q))
  rw [emb13, stateArr_apply, gateRow_blk, cellRow_blk, blk7_eq, blk8_eq]

/-- Point t writes back block t of the new hidden states. -/
theorem flushed_hidden (c : Dev nD) (t : Fin cfg0.N) :
    (dats m 0 c).flushed 12 t = ((cfg0.win 12).blk t).view.read (Elt Ideal) (hiddenArr (V m c main_arg0) (V m c main_arg3) (V m c main_arg4) (V m c main_arg5) (V m c main_arg6) (V m c main_arg7) (V m c main_arg8) (V m c main_arg9) (V m c main_arg10)) := by
  rw [Value.flushed12]
  unfold out0_12
  rw [View.canon_unit_zero hz2]
  simp only [View.ld_unit_zero (S := S10000x8) hz2, View.ld_unit_zero (S := S10000x16) hz2, View.ld_unit_zero (S := S8x64) hz2, View.ld_unit_zero (S := S16x64) hz2, View.ld_unit_zero (S := S3x16) hz2, View.ld_unit_zero (S := S4x16) hz2, View.ld_unit_zero (S := S16x1) hz2, View.ld_unit_zero (S := S64) hz1, View.ld_unit_zero (S := S1) hz1]
  funext y
  obtain ⟨p, q, rfl⟩ : ∃ (p : Fin 10000) (q : Fin 16), y = ix2 p q := ⟨y 0, y 1, eq_ix2 y⟩
  refine (hidden_apply (iblk m c 0 t) (iblk m c 1 t) (iblk m c 2 t) (iblk m c 3 t) (iblk m c 5 t) (iblk m c 4 t) (iblk m c 6 t) (iblk m c 7 t) (iblk m c 8 t) p q).trans ?_
  show _ = hiddenArr (V m c main_arg0) (V m c main_arg3) (V m c main_arg4) (V m c main_arg5) (V m c main_arg6) (V m c main_arg7) (V m c main_arg8) (V m c main_arg9) (V m c main_arg10) (((cfg0.win 12).blk t).view.emb (ix2 p q))
  rw [emb12, hiddenArr_apply, gateRow_blk, cellRow_blk, blk7_eq, blk8_eq]

/-- Point t writes back block t of the outputs. -/
theorem flushed_readout (c : Dev nD) (t : Fin cfg0.N) :
    (dats m 0 c).flushed 11 t = ((cfg0.win 11).blk t).view.read (Elt Ideal) (readoutArr (V m c main_arg0) (V m c main_arg3) (V m c main_arg4) (V m c main_arg5) (V m c main_arg6) (V m c main_arg7) (V m c main_arg8) (V m c main_arg9) (V m c main_arg10) (V m c main_arg11) (V m c main_arg12)) := by
  rw [Value.flushed11]
  unfold out0_11
  rw [View.canon_unit_zero hz2]
  simp only [View.ld_unit_zero (S := S10000x8) hz2, View.ld_unit_zero (S := S10000x16) hz2, View.ld_unit_zero (S := S8x64) hz2, View.ld_unit_zero (S := S16x64) hz2, View.ld_unit_zero (S := S3x16) hz2, View.ld_unit_zero (S := S4x16) hz2, View.ld_unit_zero (S := S16x1) hz2, View.ld_unit_zero (S := S64) hz1, View.ld_unit_zero (S := S1) hz1]
  funext y
  obtain ⟨p, z, rfl⟩ : ∃ (p : Fin 10000) (z : Fin 1), y = ix2 p z := ⟨y 0, y 1, eq_ix2 y⟩
  obtain rfl : z = 0 := Subsingleton.elim _ _
  refine (readout_apply (iblk m c 0 t) (iblk m c 1 t) (iblk m c 2 t) (iblk m c 3 t) (iblk m c 5 t) (iblk m c 4 t) (iblk m c 6 t) (iblk m c 7 t) (iblk m c 8 t) (iblk m c 9 t) (iblk m c 10 t) p).trans ?_
  show _ = readoutArr (V m c main_arg0) (V m c main_arg3) (V m c main_arg4) (V m c main_arg5) (V m c main_arg6) (V m c main_arg7) (V m c main_arg8) (V m c main_arg9) (V m c main_arg10) (V m c main_arg11) (V m c main_arg12) (((cfg0.win 11).blk t).view.emb (ix2 p (0 : Fin 1)))
  rw [emb11, readoutArr_apply, gateRow_blk, cellRow_blk, blk7_eq, blk8_eq, blk9_eq, blk10_eq]

/-! ## The arrays after the run -/

theorem final_state (c : Dev nD) : (dats m 0 c).arrAt 13 cfg0.N = stateArr (V m c main_arg0) (V m c main_arg3) (V m c main_arg4) (V m c main_arg5) (V m c main_arg6) (V m c main_arg7) (V m c main_arg8) (V m c main_arg9) (V m c main_arg10) :=
  (dats m 0 c).arrAt_eq_of_cover 13 (stateArr (V m c main_arg0) (V m c main_arg3) (V m c main_arg4) (V m c main_arg5) (V m c main_arg6) (V m c main_arg7) (V m c main_arg8) (V m c main_arg9) (V m c main_arg10)) (fun t _ => flushed_state m c t) cover13

theorem final_hidden (c : Dev nD) : (dats m 0 c).arrAt 12 cfg0.N = hiddenArr (V m c main_arg0) (V m c main_arg3) (V m c main_arg4) (V m c main_arg5) (V m c main_arg6) (V m c main_arg7) (V m c main_arg8) (V m c main_arg9) (V m c main_arg10) :=
  (dats m 0 c).arrAt_eq_of_cover 12 (hiddenArr (V m c main_arg0) (V m c main_arg3) (V m c main_arg4) (V m c main_arg5) (V m c main_arg6) (V m c main_arg7) (V m c main_arg8) (V m c main_arg9) (V m c main_arg10)) (fun t _ => flushed_hidden m c t) cover12

theorem final_readout (c : Dev nD) : (dats m 0 c).arrAt 11 cfg0.N = readoutArr (V m c main_arg0) (V m c main_arg3) (V m c main_arg4) (V m c main_arg5) (V m c main_arg6) (V m c main_arg7) (V m c main_arg8) (V m c main_arg9) (V m c main_arg10) (V m c main_arg11) (V m c main_arg12) :=
  (dats m 0 c).arrAt_eq_of_cover 11 (readoutArr (V m c main_arg0) (V m c main_arg3) (V m c main_arg4) (V m c main_arg5) (V m c main_arg6) (V m c main_arg7) (V m c main_arg8) (V m c main_arg9) (V m c main_arg10) (V m c main_arg11) (V m c main_arg12)) (fun t _ => flushed_readout m c t) cover11

/-- The kernel's run: the three results end as the outputs, the new hidden states and the new cell states of all
    nodes, functions of the argument arrays, which end unchanged. -/
theorem run : θ_run defs (onTc (τ := τ) (main (F := Ideal))) ⟨m, fun _ => 0, ρ⟩ fun r => ∀ c : Dev nD,
      r.2.mem ((c : Thread nD τ).loc main_v0_0) = readoutArr (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_v0_1) = hiddenArr (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v0_2) = stateArr (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final_readout m c), (h c).2.1.trans (final_hidden m c),
      (h c).2.2.1.trans (final_state m c), (h c).2.2.2⟩)
    (Value.run_blocks m ρ)

end Cert.KernelIdeal.NodeArrays

end
-- ==== Proof.Reference.lean ====
/-
  The reference program's three results, as whole arrays over the million nodes.

  The reference computes on whole arrays what the kernel computes block by block: the gate matrix as
  (x·Wx + bx) + (h·Wh + bh) with each bias row broadcast down the nodes, the four gates as column slices, each row of
  the peephole weights and of the gate biases sliced out, reshaped and broadcast, the logistic function spelt
  1 / (1 + exp (-z)), tanh, the rectifier as a maximum with zero, and the output by a last product and a broadcast
  one-entry bias. Read one operation at a time at an entry, every result is the function of Cell.lean of the node's
  own rows; the gate sum meets the kernel's association by gate_grouped, and the spelt-out logistic is the logistic
  function of the extended reals, the pattern 0x3F800000 being the number one.
-/
import proofs.«133652_j25890062860561_1_alg».proof.Proof.Gen.ReferenceIdeal.Read
import proofs.«133652_j25890062860561_1_alg».proof.Proof.Cell
import Idealize.ShloMosaic.Lib.IdealHost
import Idealize.ShloMosaic.PureOps.Ideal.Laws

noncomputable section

namespace Cert.ReferenceIdeal.NodeArrays

open Cert.ReferenceIdeal Cert.ReferenceIdeal.Read Cert.PeepholeCell
open Idealize.ShloMosaic Idealize.ShloMosaic.ValueIdx

variable (x0 : (⟨S1000000x8, .f32⟩ : BufTy).Contents (Elt Ideal)) (x3 x4 : (⟨S1000000x16, .f32⟩ : BufTy).Contents (Elt Ideal))
  (x5 : (⟨S8x64, .f32⟩ : BufTy).Contents (Elt Ideal)) (x6 : (⟨S64, .f32⟩ : BufTy).Contents (Elt Ideal))
  (x7 : (⟨S16x64, .f32⟩ : BufTy).Contents (Elt Ideal)) (x8 : (⟨S64, .f32⟩ : BufTy).Contents (Elt Ideal))
  (x9 : (⟨S3x16, .f32⟩ : BufTy).Contents (Elt Ideal)) (x10 : (⟨S4x16, .f32⟩ : BufTy).Contents (Elt Ideal))
  (x11 : (⟨S16x1, .f32⟩ : BufTy).Contents (Elt Ideal)) (x12 : (⟨S1, .f32⟩ : BufTy).Contents (Elt Ideal))

/-! ## Rows of the two small tables, broadcast over the nodes -/

/-- Peephole row 0 broadcast over the nodes. -/
theorem peep0_apply (p : Fin 1000000) (q : Fin 16) : val_main_v16 (F := Ideal) x9 (ix2 p q) = x9 (ix2 (0 : Fin 3) q) := by
  rw [val_main_v16_apply, val_main_v15_apply, val_main_v14_apply, val_main_v13_apply]
  refine congrArg x9 (funext fun a => Fin.ext ?_)
  match a with
  | ⟨0, _⟩ => rfl
  | ⟨1, _⟩ => exact Nat.mod_eq_of_lt q.isLt

/-- Peephole row 1 broadcast over the nodes. -/
theorem peep1_apply (p : Fin 1000000) (q : Fin 16) : val_main_v33 (F := Ideal) x9 (ix2 p q) = x9 (ix2 (1 : Fin 3) q) := by
  rw [val_main_v33_apply, val_main_v32_apply, val_main_v31_apply, val_main_v30_apply]
  refine congrArg x9 (funext fun a => Fin.ext ?_)
  match a with
  | ⟨0, _⟩ => rfl
  | ⟨1, _⟩ => exact Nat.mod_eq_of_lt q.isLt

/-- Peephole row 2 broadcast over the nodes. -/
theorem peep2_apply (p : Fin 1000000) (q : Fin 16) : val_main_v59 (F := Ideal) x9 (ix2 p q) = x9 (ix2 (2 : Fin 3) q) := by
  rw [val_main_v59_apply, val_main_v58_apply, val_main_v57_apply, val_main_v56_apply]
  refine congrArg x9 (funext fun a => Fin.ext ?_)
  match a with
  | ⟨0, _⟩ => rfl
  | ⟨1, _⟩ => exact Nat.mod_eq_of_lt q.isLt

/-- Gate bias row 0 broadcast over the nodes. -/
theorem bias0_apply (p : Fin 1000000) (q : Fin 16) : val_main_v22 (F := Ideal) x10 (ix2 p q) = x10 (ix2 (0 : Fin 4) q) := by
  rw [val_main_v22_apply, val_main_v21_apply, val_main_v20_apply, val_main_v19_apply]
  refine congrArg x10 (funext fun a => Fin.ext ?_)
  match a with
  | ⟨0, _⟩ => rfl
  | ⟨1, _⟩ => exact Nat.mod_eq_of_lt q.isLt

/-- Gate bias row 1 broadcast over the nodes. -/
theorem bias1_apply (p : Fin 1000000) (q : Fin 16) : val_main_v39 (F := Ideal) x10 (ix2 p q) = x10 (ix2 (1 : Fin 4) q) := by
  rw [val_main_v39_apply, val_main_v38_apply, val_main_v37_apply, val_main_v36_apply]
  refine congrArg x10 (funext fun a => Fin.ext ?_)
  match a with
  | ⟨0, _⟩ => rfl
  | ⟨1, _⟩ => exact Nat.mod_eq_of_lt q.isLt

/-- Gate bias row 2 broadcast over the nodes. -/
theorem bias2_apply (p : Fin 1000000) (q : Fin 16) : val_main_v50 (F := Ideal) x10 (ix2 p q) = x10 (ix2 (2 : Fin 4) q) := by
  rw [val_main_v50_apply, val_main_v49_apply, val_main_v48_apply, val_main_v47_apply]
  refine congrArg x10 (funext fun a => Fin.ext ?_)
  match a with
  | ⟨0, _⟩ => rfl
  | ⟨1, _⟩ => exact Nat.mod_eq_of_lt q.isLt

/-- Gate bias row 3 broadcast over the nodes. -/
theorem bias3_apply (p : Fin 1000000) (q : Fin 16) : val_main_v65 (F := Ideal) x10 (ix2 p q) = x10 (ix2 (3 : Fin 4) q) := by
  rw [val_main_v65_apply, val_main_v64_apply, val_main_v63_apply, val_main_v62_apply]
  refine congrArg x10 (funext fun a => Fin.ext ?_)
  match a with
  | ⟨0, _⟩ => rfl
  | ⟨1, _⟩ => exact Nat.mod_eq_of_lt q.isLt

/-! ## The broadcast constant one -/

theorem one26 (i : S1000000x16.Idx) : val_main_v26 (F := Ideal) i = (1 : EReal) := by
  rw [val_main_v26_apply, val_main_cst_apply]
  exact Ideal.ofBits_one_f32

theorem one28 (i : S1000000x16.Idx) : val_main_v28 (F := Ideal) i = (1 : EReal) := by
  rw [val_main_v28_apply, val_main_cst_0_apply]
  exact Ideal.ofBits_one_f32

theorem one43 (i : S1000000x16.Idx) : val_main_v43 (F := Ideal) i = (1 : EReal) := by
  rw [val_main_v43_apply, val_main_cst_1_apply]
  exact Ideal.ofBits_one_f32

theorem one45 (i : S1000000x16.Idx) : val_main_v45 (F := Ideal) i = (1 : EReal) := by
  rw [val_main_v45_apply, val_main_cst_2_apply]
  exact Ideal.ofBits_one_f32

theorem one69 (i : S1000000x16.Idx) : val_main_v69 (F := Ideal) i = (1 : EReal) := by
  rw [val_main_v69_apply, val_main_cst_3_apply]
  exact Ideal.ofBits_one_f32

theorem one71 (i : S1000000x16.Idx) : val_main_v71 (F := Ideal) i = (1 : EReal) := by
  rw [val_main_v71_apply, val_main_cst_4_apply]
  exact Ideal.ofBits_one_f32

/-! ## The gate matrix -/

/-- Entry (p, j) of the reference's gate matrix is gate value j of node p: its grouping (x·Wx + bx) + (h·Wh + bh)
    is the left-to-right sum. -/
theorem gates_apply (p : Fin 1000000) (j : Fin 64) :
    val_main_v8 (F := Ideal) x0 x3 x5 x6 x7 x8 (ix2 p j) = gateRow x0 x3 x5 x6 x7 x8 p j := by
  rw [val_main_v8_apply, val_main_v3_apply, val_main_v7_apply, val_main_v0_apply, val_main_v4_apply,
    val_main_v2_apply, val_main_v1_apply, val_main_v6_apply, val_main_v5_apply]
  refine Eq.trans ?_ (gate_grouped (fun k => x0 (ix2 p k)) (fun k => x3 (ix2 p k)) x5 x6 x7 x8 j)
  have l0 : ∀ k : Fin 8, lidx_main_v0 (ix2 p j) k = ix2 p k := fun k => funext fun a => Fin.ext (by
    match a with
    | ⟨0, _⟩ => rfl
    | ⟨1, _⟩ => rfl)
  have r0 : ∀ k : Fin 8, ridx_main_v0 (ix2 p j) k = ix2 k j := fun k => funext fun a => Fin.ext (by
    match a with
    | ⟨0, _⟩ => rfl
    | ⟨1, _⟩ => rfl)
  have l4 : ∀ k : Fin 16, lidx_main_v4 (ix2 p j) k = ix2 p k := fun k => funext fun a => Fin.ext (by
    match a with
    | ⟨0, _⟩ => rfl
    | ⟨1, _⟩ => rfl)
  have r4 : ∀ k : Fin 16, ridx_main_v4 (ix2 p j) k = ix2 k j := fun k => funext fun a => Fin.ext (by
    match a with
    | ⟨0, _⟩ => rfl
    | ⟨1, _⟩ => rfl)
  have i1 : idx_main_v1 (idx_main_v2 (ix2 p j)) = ix1 j := funext fun a => Fin.ext (by
    match a with
    | ⟨0, _⟩ => rfl)
  have i5 : idx_main_v5 (idx_main_v6 (ix2 p j)) = ix1 j := funext fun a => Fin.ext (by
    match a with
    | ⟨0, _⟩ => rfl)
  simp only [l0, r0, l4, r4, i1, i5]
  rfl

theorem slice0_apply (p : Fin 1000000) (q : Fin 16) :
    val_main_v9 (F := Ideal) x0 x3 x5 x6 x7 x8 (ix2 p q) = gateRow x0 x3 x5 x6 x7 x8 p (col 0 (by omega) q) := by
  rw [val_main_v9_apply]
  refine Eq.trans (congrArg (val_main_v8 (F := Ideal) x0 x3 x5 x6 x7 x8) ?_) (gates_apply x0 x3 x5 x6 x7 x8 p (col 0 (by omega) q))
  funext a; apply Fin.ext
  match a with
  | ⟨0, _⟩ => rfl
  | ⟨1, _⟩ => first | rfl | exact (Nat.zero_add _).symm

theorem slice16_apply (p : Fin 1000000) (q : Fin 16) :
    val_main_v10 (F := Ideal) x0 x3 x5 x6 x7 x8 (ix2 p q) = gateRow x0 x3 x5 x6 x7 x8 p (col 16 (by omega) q) := by
  rw [val_main_v10_apply]
  refine Eq.trans (congrArg (val_main_v8 (F := Ideal) x0 x3 x5 x6 x7 x8) ?_) (gates_apply x0 x3 x5 x6 x7 x8 p (col 16 (by omega) q))
  funext a; apply Fin.ext
  match a with
  | ⟨0, _⟩ => rfl
  | ⟨1, _⟩ => first | rfl | exact (Nat.zero_add _).symm

theorem slice32_apply (p : Fin 1000000) (q : Fin 16) :
    val_main_v11 (F := Ideal) x0 x3 x5 x6 x7 x8 (ix2 p q) = gateRow x0 x3 x5 x6 x7 x8 p (col 32 (by omega) q) := by
  rw [val_main_v11_apply]
  refine Eq.trans (congrArg (val_main_v8 (F := Ideal) x0 x3 x5 x6 x7 x8) ?_) (gates_apply x0 x3 x5 x6 x7 x8 p (col 32 (by omega) q))
  funext a; apply Fin.ext
  match a with
  | ⟨0, _⟩ => rfl
  | ⟨1, _⟩ => first | rfl | exact (Nat.zero_add _).symm

theorem slice48_apply (p : Fin 1000000) (q : Fin 16) :
    val_main_v12 (F := Ideal) x0 x3 x5 x6 x7 x8 (ix2 p q) = gateRow x0 x3 x5 x6 x7 x8 p (col 48 (by omega) q) := by
  rw [val_main_v12_apply]
  refine Eq.trans (congrArg (val_main_v8 (F := Ideal) x0 x3 x5 x6 x7 x8) ?_) (gates_apply x0 x3 x5 x6 x7 x8 p (col 48 (by omega) q))
  funext a; apply Fin.ext
  match a with
  | ⟨0, _⟩ => rfl
  | ⟨1, _⟩ => first | rfl | exact (Nat.zero_add _).symm

/-! ## The gates and the three results at an entry -/

/-- The input gate at (p, q). -/
theorem inputGate_apply (p : Fin 1000000) (q : Fin 16) :
    val_main_v29 (F := Ideal) x0 x3 x4 x5 x6 x7 x8 x9 x10 (ix2 p q)
      = Ideal.logistic (gateRow x0 x3 x5 x6 x7 x8 p (col 0 (by omega) q) + x9 (ix2 0 q) * x4 (ix2 p q) + x10 (ix2 0 q)) := by
  rw [val_main_v29_apply, val_main_v27_apply, val_main_v25_apply, val_main_v24_apply, val_main_v23_apply,
    val_main_v18_apply, val_main_v17_apply, one28, one26, slice0_apply, peep0_apply, bias0_apply]
  rfl

/-- The forget gate at (p, q). -/
theorem forgetGate_apply (p : Fin 1000000) (q : Fin 16) :
    val_main_v46 (F := Ideal) x0 x3 x4 x5 x6 x7 x8 x9 x10 (ix2 p q)
      = Ideal.logistic (gateRow x0 x3 x5 x6 x7 x8 p (col 16 (by omega) q) + x9 (ix2 1 q) * x4 (ix2 p q) + x10 (ix2 1 q)) := by
  rw [val_main_v46_apply, val_main_v44_apply, val_main_v42_apply, val_main_v41_apply, val_main_v40_apply,
    val_main_v35_apply, val_main_v34_apply, one45, one43, slice16_apply, peep1_apply, bias1_apply]
  rfl

/-- The reference's new cell states are the function of Cell.lean, node by node. -/
theorem state_eq : val_main_v55 (F := Ideal) x0 x3 x4 x5 x6 x7 x8 x9 x10 = stateArr x0 x3 x4 x5 x6 x7 x8 x9 x10 := by
  funext i
  obtain ⟨p, q, rfl⟩ : ∃ (p : Fin 1000000) (q : Fin 16), i = ix2 p q := ⟨i 0, i 1, eq_ix2 i⟩
  rw [val_main_v55_apply, val_main_v53_apply, val_main_v54_apply, val_main_v52_apply, val_main_v51_apply,
    forgetGate_apply, inputGate_apply, slice32_apply, bias2_apply]
  rfl

/-- The output gate at (p, q), over the new cell state. -/
theorem outputGate_apply (p : Fin 1000000) (q : Fin 16) :
    val_main_v72 (F := Ideal) x0 x3 x4 x5 x6 x7 x8 x9 x10 (ix2 p q)
      = Ideal.logistic (gateRow x0 x3 x5 x6 x7 x8 p (col 48 (by omega) q)
          + x9 (ix2 2 q) * stateArr x0 x3 x4 x5 x6 x7 x8 x9 x10 (ix2 p q) + x10 (ix2 3 q)) := by
  rw [val_main_v72_apply, val_main_v70_apply, val_main_v68_apply, val_main_v67_apply, val_main_v66_apply,
    val_main_v61_apply, val_main_v60_apply, one71, one69, slice48_apply, peep2_apply, bias3_apply, state_eq]
  rfl

/-- The reference's new hidden states are the function of Cell.lean, node by node. -/
theorem hidden_eq : val_main_v74 (F := Ideal) x0 x3 x4 x5 x6 x7 x8 x9 x10 = hiddenArr x0 x3 x4 x5 x6 x7 x8 x9 x10 := by
  funext i
  obtain ⟨p, q, rfl⟩ : ∃ (p : Fin 1000000) (q : Fin 16), i = ix2 p q := ⟨i 0, i 1, eq_ix2 i⟩
  rw [val_main_v74_apply, val_main_v73_apply, outputGate_apply, state_eq]
  rfl

/-- The reference's outputs are the function of Cell.lean, node by node. -/
theorem readout_eq : val_main_v79 (F := Ideal) x0 x3 x4 x5 x6 x7 x8 x9 x10 x11 x12 = readoutArr x0 x3 x4 x5 x6 x7 x8 x9 x10 x11 x12 := by
  funext i
  obtain ⟨p, z, rfl⟩ : ∃ (p : Fin 1000000) (z : Fin 1), i = ix2 p z := ⟨i 0, i 1, eq_ix2 i⟩
  obtain rfl : z = 0 := Subsingleton.elim _ _
  rw [val_main_v79_apply, val_main_v76_apply, val_main_v78_apply, val_main_v77_apply]
  have hb : idx_main_v77 (idx_main_v78 (ix2 p (0 : Fin 1))) = ix1 (0 : Fin 1) := funext fun a => Fin.ext (by
    match a with
    | ⟨0, _⟩ => rfl)
  have hl : ∀ k : Fin 16, lidx_main_v76 (ix2 p (0 : Fin 1)) k = ix2 p k := fun k => funext fun a => Fin.ext (by
    match a with
    | ⟨0, _⟩ => rfl
    | ⟨1, _⟩ => rfl)
  have hr : ∀ k : Fin 16, ridx_main_v76 (ix2 p (0 : Fin 1)) k = ix2 k (0 : Fin 1) := fun k => funext fun a => Fin.ext (by
    match a with
    | ⟨0, _⟩ => rfl
    | ⟨1, _⟩ => rfl)
  have hrelu : ∀ k : Fin 16, val_main_v75 (F := Ideal) x0 x3 x4 x5 x6 x7 x8 x9 x10 (ix2 p k)
      = max (hiddenArr x0 x3 x4 x5 x6 x7 x8 x9 x10 (ix2 p k)) 0 := fun k => by
    rw [val_main_v75_apply, val_main_call0_v0_apply, val_main_call0_cst_apply, hidden_eq]
    exact congrArg (max _) Ideal.ofBits_zero_f32
  simp only [hb, hl, hr, hrelu]
  rfl

end Cert.ReferenceIdeal.NodeArrays

end
-- ==== Proof.lean ====
/-
  A graph-convolutional LSTM step with peephole connections over a million nodes, as a Pallas kernel against its
  jnp reference, equal over the extended reals.

  A Chebyshev convolution of order one touches no edge, so both programs ignore the edge arrays and every node is
  processed on its own rows: the 64 gate pre-activations x·Wx + h·Wh + bx + bh, the input, forget and output gates
  through the logistic function with peephole terms, the candidate through tanh, the new cell state
  f·c + i·tanh(..), the new hidden state o·tanh(c'), and the output relu(h')·W_lin + b_lin (Cell.lean states these
  functions). The kernel runs over 100 blocks of 10000 nodes; what each grid point writes back is that function of
  the node's rows (KernelCell.lean), and the blocks tile the three result arrays (KernelArrays.lean). The reference
  computes the same on whole arrays, with the gate sum grouped (x·Wx + bx) + (h·Wh + bh) and the logistic function
  spelt 1 / (1 + exp (-z)) (Reference.lean). The two agree because addition of extended reals is commutative and
  associative and because that quotient is the logistic function there; narrowing a product's operands to bf16 is
  the identity on the extended reals. No finiteness of the inputs is used.

  The three frames are the generated frame certificates and the reference's generated run; the ideal pass rewrote
  nothing, so the kernel's idealization is its own text.
-/
import proofs.«133652_j25890062860561_1_alg».proof.Defs
import proofs.«133652_j25890062860561_1_alg».proof.Proof.Gen.Kernel
import proofs.«133652_j25890062860561_1_alg».proof.Proof.Gen.Kernel.Skeleton
import proofs.«133652_j25890062860561_1_alg».proof.Proof.Gen.Kernel.Launch
import proofs.«133652_j25890062860561_1_alg».proof.Proof.Gen.Kernel.Points
import proofs.«133652_j25890062860561_1_alg».proof.Proof.Gen.Kernel.Frame
import proofs.«133652_j25890062860561_1_alg».proof.Proof.Gen.KernelIdeal
import proofs.«133652_j25890062860561_1_alg».proof.Proof.Gen.KernelIdeal.Skeleton
import proofs.«133652_j25890062860561_1_alg».proof.Proof.Gen.KernelIdeal.Launch
import proofs.«133652_j25890062860561_1_alg».proof.Proof.Gen.KernelIdeal.Points
import proofs.«133652_j25890062860561_1_alg».proof.Proof.Gen.KernelIdeal.Frame
import proofs.«133652_j25890062860561_1_alg».proof.Proof.Gen.ReferenceIdeal
import proofs.«133652_j25890062860561_1_alg».proof.Proof.Gen.Pre_finite_inputs
import proofs.«133652_j25890062860561_1_alg».proof.Proof.Gen.KernelIdeal.Value
import proofs.«133652_j25890062860561_1_alg».proof.Proof.Gen.ReferenceIdeal.Run
import proofs.«133652_j25890062860561_1_alg».proof.Proof.Gen.ReferenceIdeal.Read
import proofs.«133652_j25890062860561_1_alg».proof.Proof.KernelArrays
import proofs.«133652_j25890062860561_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs end with the outputs, the new hidden states and the new cell states of all nodes as the same
    functions of the argument arrays. -/
theorem algebraic : Cert.algebraic_KernelIdeal_ReferenceIdeal := by
  intro m ρ m' ρ' _ hagree
  refine ⟨_, _, _, Cert.KernelIdeal.NodeArrays.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  refine ⟨(h c).1.trans ?_, (h c).2.1.trans ?_, (h c).2.2.1.trans ?_, (h c).2.2.2⟩
  · rw [Cert.ReferenceIdeal.Read.val_main_v79_eq, Cert.ReferenceIdeal.NodeArrays.readout_eq,
      a0, a3, a4, a5, a6, a7, a8, a9, a10, a11, a12]
  · rw [Cert.ReferenceIdeal.Read.val_main_v74_eq, Cert.ReferenceIdeal.NodeArrays.hidden_eq,
      a0, a3, a4, a5, a6, a7, a8, a9, a10]
  · rw [Cert.ReferenceIdeal.Read.val_main_v55_eq, Cert.ReferenceIdeal.NodeArrays.state_eq,
      a0, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
